-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S512x4096 : Shape := ⟨2, ![512, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S4096x4096 .f32) (main_arg1 : FVec F S512x4096 .f32) (main_arg2 : FVec F S512x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  main_v13
-- ==== Kernel.lean ====
abbrev S4096x4096 : Shape := ⟨2, ![4096, 4096]⟩
abbrev S512x4096 : Shape := ⟨2, ![512, 4096]⟩
abbrev S512x1024 : Shape := ⟨2, ![512, 1024]⟩
abbrev S1024x1024 : Shape := ⟨2, ![1024, 1024]⟩

abbrev nBuf : Space → Nat
  | .hbm => 5
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S512x1024_S1024x1024_S512x1024_1_0_0_1_n_n_wf : DotDims.WF S512x1024 S1024x1024 S512x1024 [1] [0] [0] [1] [] []
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x4096.size a
  hwx0_0 : ∀ i : grid0.Coords, EltTy.bits .f32 = 32 ∨ (Rect.block (s := S512x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x4096.size a
  hwx0_2 : ∀ i : grid0.Coords, EltTy.bits .f32 = 32 ∨ (Rect.block (s := S512x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x4096.size a
  hwx0_3 : ∀ i : grid0.Coords, EltTy.bits .f32 = 32 ∨ (Rect.block (s := S512x4096) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x4096.size a
  hwx1_0 : ∀ i : grid1.Coords, EltTy.bits .f32 = 32 ∨ (Rect.block (s := S512x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x4096.size a
  hwx1_1 : ∀ i : grid1.Coords, EltTy.bits .f32 = 32 ∨ (Rect.block (s := S512x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S512x4096 : Shape := ⟨2, ![512, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S_, .f32⟩
  | .hbm, ⟨7, _⟩ => ⟨S512x4096, .f32⟩
  | .hbm, ⟨8, _⟩ => ⟨S512x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S512x4096, .f32⟩
  | .hbm, ⟨17, _⟩ => ⟨S512x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S512x4096 : S_.BroadcastsInDim S512x4096 (![] : Fin 0 → Fin S512x4096.rank)
  reducesTo_S512x4096_S_d0_1 : S512x4096.ReducesTo [0, 1] S_
  h_S_ : 0 < S_.numel
  transposes_S4096x4096_S4096x4096_1_0 : S4096x4096.Transposes [1, 0] S4096x4096
  bcast_S_S4096x4096 : S_.BroadcastsInDim S4096x4096 (![] : Fin 0 → Fin S4096x4096.rank)
  dot_S512x4096_S4096x4096_S512x4096_1_0_0_1_n_n_wf : DotDims.WF S512x4096 S4096x4096 S512x4096 [1] [0] [0] [1] [] []
  dot_S512x4096_S512x4096_S4096x4096_0_0_1_1_n_n_wf : DotDims.WF S512x4096 S512x4096 S4096x4096 [0] [0] [1] [1] [] []

variable [Facts₀]

def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf
def dot_S512x4096_S512x4096_S4096x4096_0_0_1_1_n_n : DotDims S512x4096 S512x4096 S4096x4096 where
  lhsContracting := [0]
  rhsContracting := [0]
  lhsNonContracting := [1]
  rhsNonContracting := [1]
  lhsBatch := []
  rhsBatch := []
  wf := dot_S512x4096_S512x4096_S4096x4096_0_0_1_1_n_n_wf

class Facts : Prop extends Facts₀ where

variable [Facts]
-- ==== Proof.Bits.Region0.lean ====
/-
  The first pallas_call (diff = keys · W − vals, accumulated over four contraction blocks) as a pipeline region, at any
  float instance and at any contents `V` of the core's buffers when the region is entered.

  The grid is 4 × 4, point `t = 4·n + k`: `n` the column block of the result, `k` the contraction block. The body keeps
  an accumulator in a scratch buffer across the four points of one `n`: at `k = 0` it first overwrites it with zeros;
  at every point it replaces it by (accumulator + keys-block · weights-block); at `k = 3` it writes
  (accumulator − vals-block) into the output window's buffer, which the pipeline writes back only there.
  So a point is in one of three cases — first of its group, middle, last of its group — and the accumulator after point
  `t` is a recursion on `t` that restarts at every `t ≡ 0 (mod 4)`.
-/
import proofs.«158181_j27822798143729_1_alg».proof.Proof.Gen.Kernel.Launch
import proofs.«158181_j27822798143729_1_alg».proof.Proof.Gen.Kernel.Skeleton
import proofs.«158181_j27822798143729_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer access, however they are spelt. -/
private theorem off_zero : (![0, 0] : Fin 2 → Nat) = fun _ => 0 := by
  funext a; fin_cases a <;> rfl

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two branch conditions, in closed form over the grid -/

/-- "This is the first contraction block" (`k = 0`), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last contraction block" (`k = 3`), as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The inputs are never idle; the output is idle, and not written back, exactly off the last contraction block. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The scratch operand: a whole scoped buffer of the kernel's own. -/
abbrev scM0 : Memref sig .tc .vmem S512x1024 .f32 := Memref.whole cc0_scratch0

/-! ## The body's triple, case by case -/

set_option maxHeartbeats 2000000 in
/-- FIRST of a group (`k = 0`): the accumulator is zeroed and then holds zeros + keys-block · weights-block; the output
    window's buffer is handed back untouched. -/
theorem sound0_A (c : Dev nD) (E : Set ℕ) (i : grid0.Coords) (arg2 : Memref sig .tc .vmem S512x1024 .f32) (harg2 : arg2.IsWhole) (arg3 : Memref sig .tc .vmem S1024x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S512x1024 .f32) (harg6 : arg6.IsWhole)
    (hc0 : cond0_0 i) (hc1 : ¬cond0_1 i)
    (x0 : Vec F S512x1024 .f32) (x1 : Vec F S1024x1024 .f32) (x2 : Vec F S512x1024 .f32) (xi3 : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k0_pay2 x0 x1 k0_pay1)) -∗ K ⟨⟩))
      ⊢ wp frame (wpE (defs₀ (F := F)) Variants.none c none) E (cc0__stage_a_kernel i arg2 harg2 arg3 harg3 arg4 harg4 arg5 harg5 arg6 harg6) K := by
  simp only [cc0__stage_a_kernel_eq_skeleton]; unfold cc0__stage_a_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero off_zero inb_S512x1024_S512x1024_0_0 y⟩),
    View.canon_cons_unit_zero (S := S512x1024) off_zero]
  simp only [View.readAt_eq_ld, View.ld_unit_zero (S := S512x1024) off_zero, View.ld_unit_zero (S := S1024x1024) off_zero,
    View.readCov_unit_zero (S := S512x1024) _ off_zero]

set_option maxHeartbeats 2000000 in
/-- MIDDLE of a group (`k = 1, 2`): the accumulator, found at `xs`, ends at `xs` + keys-block · weights-block; the output
    window's buffer is handed back untouched. -/
theorem sound0_B (c : Dev nD) (E : Set ℕ) (i : grid0.Coords) (arg2 : Memref sig .tc .vmem S512x1024 .f32) (harg2 : arg2.IsWhole) (arg3 : Memref sig .tc .vmem S1024x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S512x1024 .f32) (harg6 : arg6.IsWhole)
    (hc0 : ¬cond0_0 i) (hc1 : ¬cond0_1 i)
    (x0 : Vec F S512x1024 .f32) (x1 : Vec F S1024x1024 .f32) (x2 : Vec F S512x1024 .f32) (xi3 : Vec F S512x1024 .f32) (xs : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k0_pay2 x0 x1 xs)) -∗ K ⟨⟩))
      ⊢ wp frame (wpE (defs₀ (F := F)) Variants.none c none) E (cc0__stage_a_kernel i arg2 harg2 arg3 harg3 arg4 harg4 arg5 harg5 arg6 harg6) K := by
  simp only [cc0__stage_a_kernel_eq_skeleton]; unfold cc0__stage_a_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero off_zero inb_S512x1024_S512x1024_0_0 y⟩),
    View.canon_cons_unit_zero (S := S512x1024) off_zero]
  simp only [View.readAt_eq_ld, View.ld_unit_zero (S := S512x1024) off_zero, View.ld_unit_zero (S := S1024x1024) off_zero,
    View.readCov_unit_zero (S := S512x1024) _ off_zero]

set_option maxHeartbeats 2000000 in
/-- LAST of a group (`k = 3`): the accumulator, found at `xs`, ends at `acc = xs` + keys-block · weights-block, and the
    output window's buffer at `acc` − vals-block. -/
theorem sound0_C (c : Dev nD) (E : Set ℕ) (i : grid0.Coords) (arg2 : Memref sig .tc .vmem S512x1024 .f32) (harg2 : arg2.IsWhole) (arg3 : Memref sig .tc .vmem S1024x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S512x1024 .f32) (harg6 : arg6.IsWhole)
    (hc0 : ¬cond0_0 i) (hc1 : cond0_1 i)
    (x0 : Vec F S512x1024 .f32) (x1 : Vec F S1024x1024 .f32) (x2 : Vec F S512x1024 .f32) (xs : Vec F S512x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 x0 x1 xs) x2)
            ∗ owns (c : Thread nD τ) arg6 fullShare (k0_pay2 x0 x1 xs)) -∗ K ⟨⟩))
      ⊢ wp frame (wpE (defs₀ (F := F)) Variants.none c none) E (cc0__stage_a_kernel i arg2 harg2 arg3 harg3 arg4 harg4 arg5 harg5 arg6 harg6) K := by
  simp only [cc0__stage_a_kernel_eq_skeleton]; unfold cc0__stage_a_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero off_zero inb_S512x1024_S512x1024_0_0 y⟩),
      View.canon_cons_unit_zero (S := S512x1024) off_zero]
    simp only [View.readAt_eq_ld, View.ld_unit_zero (S := S512x1024) off_zero, View.ld_unit_zero (S := S1024x1024) off_zero,
      View.readCov_unit_zero (S := S512x1024) _ off_zero]
  iexists _; isplitr
  swap; · iexact H6
  ipureintro
  sl_unfold_words
  rw [View.read_writes_eq_canon _ _ _ (fun y => ⟨_, List.mem_cons_self, View.mem_set_unit_zero off_zero inb_S512x1024_S512x1024_0_0 y⟩),
    View.canon_cons_unit_zero (S := S512x1024) off_zero]
  simp only [View.readAt_eq_ld, View.ld_unit_zero (S := S512x1024) off_zero, View.ld_unit_zero (S := S1024x1024) off_zero,
    View.readCov_unit_zero (S := S512x1024) _ off_zero]

/-! ## The accumulator, point by point -/

/-- What the scratch accumulator holds after the body at position `n`: keys-block · weights-block added to zeros at
    the first point of a group (`n ≡ 0 mod 4`) and to what the point before left otherwise. -/
def accAt0 (c : Dev nD) : (n : ℕ) → n < cfg0.N → Vec F S512x1024 .f32
  | 0, hn => k0_pay2 (iblk0 V c 0 ⟨0, hn⟩) (iblk0 V c 1 ⟨0, hn⟩) k0_pay1
  | n + 1, hn =>
    if (n + 1) % 4 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (accAt0 c n (Nat.lt_of_succ_lt hn))

/-- At the first point of a group the accumulator restarts from zeros. -/
theorem accAt0_first (c : Dev nD) (t : Fin cfg0.N) (h0 : t.val % 4 = 0) :
    accAt0 V c t.val t.isLt = k0_pay2 (iblk0 V c 0 t) (iblk0 V c 1 t) k0_pay1 := by
  obtain ⟨n, hn⟩ := t
  cases n with
  | zero => rfl
  | succ n => exact if_pos h0

/-- At any other point it adds to what the point before left. -/
theorem accAt0_next (c : Dev nD) (t : Fin cfg0.N) (h0 : ¬t.val % 4 = 0) :
    accAt0 V c t.val t.isLt
      = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The region invariant -/

/-- The core's scoped buffers other than this call's staging buffers and its scratch (the second call's staging
    buffers), each whole at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch split out as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0; rw [scopedRest0_eq]; simp only [scM0, owns_whole]; rfl

/-- The region invariant before position `n`: before the first point every scoped buffer at anything; afterwards the
    accumulator at what the point before left in it, the other scoped buffers at anything, the generator register at
    some state. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (accAt0 V c n hn) ∗ others0 c) ∗ (∃ r, prngReg c r)) := rfl

theorem PhiS0_pos (c : Dev nD) (n : ℕ) (h : n ≤ cfg0.N) (hz : n ≠ 0) :
    PhiS0 V c n h = iprop((owns (c : Thread nD τ) scM0 fullShare (accAt0 V c (n - 1) (by omega)) ∗ others0 c) ∗ (∃ r, prngReg c r)) := by
  cases n with
  | zero => exact absurd rfl hz
  | succ n => rfl

/-! ## The proof data -/

/-- The proof data of the first pipeline on core `c`: the arrays as the region finds them; after the body at point
    `t` each input's buffer still at its block and the output's at (accumulator after `t`) − vals-block (read only
    at the points that write it back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- What the body leaves in the output window's buffer at point `t`. -/
theorem after0_3 (c : Dev nD) (t : Fin cfg0.N) :
    (dat0 V c).after 3 t = k0_pay3 (accAt0 V c t.val t.isLt) (iblk0 V c 2 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' memrefs hold their blocks; the closed forms say which case the point is in; the
    invariant hands the body the accumulator at what the point before left (at anything at the very first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (st0_0 t) fullShare ((dat0 V c).after 0 t) from by
        unfold Dat.leavesExact; rw [liveAt0_0 t],
      show (dat0 V c).leavesExact 1 t = owns (c : Thread nD τ) (st0_1 t) fullShare ((dat0 V c).after 1 t) from by
        unfold Dat.leavesExact; rw [liveAt0_1 t],
      show (dat0 V c).leavesExact 2 t = owns (c : Thread nD τ) (st0_2 t) fullShare ((dat0 V c).after 2 t) from by
        unfold Dat.leavesExact; rw [liveAt0_2 t],
      after0_0, after0_1, after0_2]
  by_cases h1 : t.val % 4 = 3
  · -- last of its group
    have h0 : ¬t.val % 4 = 0 := by omega
    have hz : t.val ≠ 0 := by omega
    rw [show (dat0 V c).leavesExact 3 t = owns (c : Thread nD τ) (st0_3 t) fullShare ((dat0 V c).after 3 t) from by
          unfold Dat.leavesExact; rw [liveAt0_3 t ((hcond0_1 t).mpr h1)], after0_3]
    rw [accAt0_next V c t h0, PhiS0_castSucc V c t, PhiS0_pos V c _ _ hz]
    iintro ⟨⟨⟨HS, Hoth⟩, Hg⟩, Ho, ⟨%d0, H0⟩, ⟨%d1, H1⟩, ⟨%d2, H2⟩, ⟨%d3, H3⟩⟩
    iapply (sound0_C c Set.univ (grid0.coords t) _ _ _ _ _ _ _ _ _ _ (fun h => h0 ((hcond0_0 t).mp h)) ((hcond0_1 t).mpr h1)
      (iblk0 V c 0 t) (iblk0 V c 1 t) (iblk0 V c 2 t) (accAt0 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hnc1 : ¬cond0_1 (grid0.coords t) := fun h => h1 ((hcond0_1 t).mp h)
    rw [Dat.leavesExact_idle (dat0 V c) 3 t (idleAt0_3 t hnc1) (noFlush0_3 t hnc1)]
    by_cases h0 : t.val % 4 = 0
    · -- first of its group
      rw [accAt0_first V c t h0]
      by_cases hz : t.val = 0
      · rw [PhiS0_castSucc V c t, PhiS0_zero V c _ _ hz, PhiA0_eq]
        iintro ⟨⟨⟨HS, Hoth⟩, Hg⟩, Ho, ⟨%d0, H0⟩, ⟨%d1, H1⟩, ⟨%d2, H2⟩, ⟨%d3, H3⟩⟩
        iapply (sound0_A c Set.univ (grid0.coords t) _ _ _ _ _ _ _ _ _ _ ((hcond0_0 t).mpr h0) hnc1
          (iblk0 V c 0 t) (iblk0 V c 1 t) (iblk0 V c 2 t) _ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, Hoth⟩, Hg⟩, Ho, ⟨%d0, H0⟩, ⟨%d1, H1⟩, ⟨%d2, H2⟩, ⟨%d3, H3⟩⟩
        iapply (sound0_A c Set.univ (grid0.coords t) _ _ _ _ _ _ _ _ _ _ ((hcond0_0 t).mpr h0) hnc1
          (iblk0 V c 0 t) (iblk0 V c 1 t) (iblk0 V c 2 t) _ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexists _; iexact H3
    · -- middle of its group
      have hz : t.val ≠ 0 := fun e => h0 (by rw [e])
      rw [accAt0_next V c t h0, PhiS0_castSucc V c t, PhiS0_pos V c _ _ hz]
      iintro ⟨⟨⟨HS, Hoth⟩, Hg⟩, Ho, ⟨%d0, H0⟩, ⟨%d1, H1⟩, ⟨%d2, H2⟩, ⟨%d3, H3⟩⟩
      iapply (sound0_B c Set.univ (grid0.coords t) _ _ _ _ _ _ _ _ _ _ (fun h => h0 ((hcond0_0 t).mp h)) hnc1
        (iblk0 V c 0 t) (iblk0 V c 1 t) (iblk0 V c 2 t) _ (accAt0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS, Hoth⟩, Hg⟩
  isplitl [HS Hoth]
  · isplitl [HS]; · iexists _; iexact HS
    iexact Hoth
  iexact Hg

end Cert.Kernel.Hand

end
-- ==== Proof.Bits.Region1.lean ====
/-
  The second pallas_call (the weight update) as a pipeline region, at any float instance and at any contents `V`
  of the core's buffers when the region is entered.

  At grid point `t = (mi, ni)` the body reads three whole staging buffers — the column block `mi` of the keys
  (512 × 1024), the column block `ni` of the first call's result (512 × 1024), and the tile `(mi, ni)` of the
  weights (1024 × 1024) — and overwrites the whole output buffer with ONE pure function of them, the skeleton's
  `k1_pay1`: weights − c · (keysᵀ · diff), the product contracting the 512 rows. Every load and the store go through the
  whole-buffer rectangle at offset zero, so a load reads the buffer's contents and the store leaves its payload.
-/
import proofs.«158181_j27822798143729_1_alg».proof.Proof.Gen.Kernel.Launch
import proofs.«158181_j27822798143729_1_alg».proof.Proof.Gen.Kernel.Skeleton
import proofs.«158181_j27822798143729_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer access, however they are spelt. -/
private theorem off_zero : (![0, 0] : Fin 2 → Nat) = fun _ => 0 := by
  funext a; fin_cases a <;> rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's triple -/

set_option maxHeartbeats 1000000 in
/-- On whole staging memrefs, the three inputs at contents `x0`, `x1`, `x2` and the output at anything, the body runs
    to a state with the inputs as they were and the output at `k1_pay1 x0 x1 x2`. -/
theorem sound_kernel1 (c : Dev nD) (E : Set ℕ) (i : grid1.Coords)
    (arg2 : Memref sig .tc .vmem S512x1024 .f32) (harg2 : arg2.IsWhole) (arg3 : Memref sig .tc .vmem S512x1024 .f32) (harg3 : arg3.IsWhole)
    (arg4 : Memref sig .tc .vmem S1024x1024 .f32) (harg4 : arg4.IsWhole) (arg5 : Memref sig .tc .vmem S1024x1024 .f32) (harg5 : arg5.IsWhole)
    (x0 : Vec F S512x1024 .f32) (x1 : Vec F S512x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 x0 x1 x2)) -∗ K ⟨⟩))
      ⊢ wp frame (wpE (defs₀ (F := F)) Variants.none c none) E (cc1__stage_b_kernel i arg2 harg2 arg3 harg3 arg4 harg4 arg5 harg5) K := by
  simp only [cc1__stage_b_kernel_eq_skeleton]; unfold cc1__stage_b_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero off_zero inb_S1024x1024_S1024x1024_0_0 y⟩),
    View.canon_unit_zero off_zero]
  simp only [View.readAt_eq_ld, View.ld_unit_zero (S := S512x1024) off_zero, View.ld_unit_zero (S := S1024x1024) off_zero]

/-! ## The proof data -/

/-- The proof data of the second pipeline on core `c`: the arrays as the region finds them; after the body at point
    `t` each input's buffer still at its block and the output's at `k1_pay1` of the three input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- What the body leaves in the output window's buffer at point `t`. -/
theorem after1_3 (c : Dev nD) (t : Fin cfg1.N) :
    (dat1 V c).after 3 t = k1_pay1 (iblk1 V c 0 t) (iblk1 V c 1 t) (iblk1 V c 2 t) := by dsimp only [dat1]

/-- Each input's current staging buffer holds its block at every point, fetched there or not: where the pipeline
    does not fetch, the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  The whole run of the two pallas_calls, at any float instance: the contents of the core's unscoped buffers at the
  three boundaries (launch; after the first call, whose result array holds what its write-backs leave; after the
  second), each call as a region over the thread state "every unscoped buffer at the boundary's contents, the
  generator register at some state, nothing owed", and the run itself: every weakly fair execution terminates with
  every unscoped buffer at the last boundary's contents. The frame claim and the value of the result are read off that.
-/
import proofs.«158181_j27822798143729_1_alg».proof.Proof.Bits.Region0
import proofs.«158181_j27822798143729_1_alg».proof.Proof.Bits.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 (c : Dev nD) : Valuation τ sig (Elt F) := fun b => m (c, b)
/-- The same read at the TensorCore's references: what the first call's proof data take. -/
abbrev V0 : (c : Dev nD) → (b : Ref sig .tc) → Buf (Elt F) ((c : Thread nD τ).loc b) := fun c b => W0 m c b
/-- After the first call: its arrays at what the pipeline leaves (the inputs as entered, the result's write-backs
    folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second call's proof data take. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second call. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### What the second call finds: the arguments as launched, the first call's result array -/

theorem V1_main_arg0 (c : Dev nD) : V1 m c main_arg0 = m ((c : Thread nD τ).loc main_arg0) :=
  (W1_arr m c 1).trans (((dat0 (V0 m) c).arrAt_in 1 rfl _).trans (A_eq0 (V0 m) c 1))
theorem V1_main_arg1 (c : Dev nD) : V1 m c main_arg1 = m ((c : Thread nD τ).loc main_arg1) :=
  (W1_arr m c 0).trans (((dat0 (V0 m) c).arrAt_in 0 rfl _).trans (A_eq0 (V0 m) c 0))
theorem V1_main_arg2 (c : Dev nD) : V1 m c main_arg2 = m ((c : Thread nD τ).loc main_arg2) :=
  (W1_arr m c 2).trans (((dat0 (V0 m) c).arrAt_in 2 rfl _).trans (A_eq0 (V0 m) c 2))
/-- The first call's result array as the second call finds it. -/
theorem V1_main_v0 (c : Dev nD) : V1 m c main_v0 = (dat0 (V0 m) c).arrAt 3 cfg0.N := W1_arr m c 3

/-! ### The end: the arguments as launched, the result at what the second call's write-backs leave -/

theorem W2_main_arg0 (c : Dev nD) : W2 m c (Proc.devRef .tc main_arg0) = m ((c : Thread nD τ).loc main_arg0) :=
  (W2_arr m c 2).trans (((dat1 (V1 m) c).arrAt_in 2 rfl _).trans ((A_eq1 (V1 m) c 2).trans (V1_main_arg0 m c)))
theorem W2_main_arg1 (c : Dev nD) : W2 m c (Proc.devRef .tc main_arg1) = m ((c : Thread nD τ).loc main_arg1) :=
  (W2_arr m c 0).trans (((dat1 (V1 m) c).arrAt_in 0 rfl _).trans ((A_eq1 (V1 m) c 0).trans (V1_main_arg1 m c)))
theorem W2_main_arg2 (c : Dev nD) : W2 m c (Proc.devRef .tc main_arg2) = m ((c : Thread nD τ).loc main_arg2) :=
  (W2_of_ne m c main_arg2 (by decide)).trans (V1_main_arg2 m c)
/-- The program's result array at the end. -/
theorem W2_main_v1 (c : Dev nD) : W2 m c (Proc.devRef .tc main_v1) = (dat1 (V1 m) c).arrAt 3 cfg1.N := W2_arr m c 3

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W2 m c) ∗ ∃ r, prngReg c r)

/-! ## The two calls as segments -/

set_option backward.isDefEq.respectTransparency.types false in
/-- THE FIRST CALL over the thread state: entered from every unscoped buffer at launch contents, left at `W1`. Its
    arrays are split out of the unscoped buffers and put back at the exit contents; the generator register goes into the
    invariant and comes out; the accumulator's contents are forgotten at the exit; nothing owed; no semaphore of the
    kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m) () defs₀ 𝒱₀ L lv) :=
  [ .region (reg0 m), .region (reg1 m) ]
/-- @main IS the run of the segments. -/
theorem main_run (c : Dev nD) : main (F := F) c = Pipeline.Seg.run (segs m) := (main_chain c).trans (by chain_rfl)

set_option backward.isDefEq.respectTransparency.types false in
/-- THE RUN. From any memory with zero counters, every weakly fair execution of @main on the TensorCore terminates,
    nothing faulting, and every final state holds every unscoped buffer at the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME, at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- The run with the result array named: it ends at what the second call's write-backs leave. -/
theorem run_value : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.Kernel.Hand

end
-- ==== Proof.Ideal.Region0.lean ====
/-
  The first pallas_call (diff = keys · W − vals, accumulated over four contraction blocks) as a pipeline region, at any
  float instance and at any contents `V` of the core's buffers when the region is entered.

  The grid is 4 × 4, point `t = 4·n + k`: `n` the column block of the result, `k` the contraction block. The body keeps
  an accumulator in a scratch buffer across the four points of one `n`: at `k = 0` it first overwrites it with zeros;
  at every point it replaces it by (accumulator + keys-block · weights-block); at `k = 3` it writes
  (accumulator − vals-block) into the output window's buffer, which the pipeline writes back only there.
  So a point is in one of three cases — first of its group, middle, last of its group — and the accumulator after point
  `t` is a recursion on `t` that restarts at every `t ≡ 0 (mod 4)`.
-/
import proofs.«158181_j27822798143729_1_alg».proof.Proof.Gen.KernelIdeal.Launch
import proofs.«158181_j27822798143729_1_alg».proof.Proof.Gen.KernelIdeal.Skeleton
import proofs.«158181_j27822798143729_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer access, however they are spelt. -/
private theorem off_zero : (![0, 0] : Fin 2 → Nat) = fun _ => 0 := by
  funext a; fin_cases a <;> rfl

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two branch conditions, in closed form over the grid -/

/-- "This is the first contraction block" (`k = 0`), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last contraction block" (`k = 3`), as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The inputs are never idle; the output is idle, and not written back, exactly off the last contraction block. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The scratch operand: a whole scoped buffer of the kernel's own. -/
abbrev scM0 : Memref sig .tc .vmem S512x1024 .f32 := Memref.whole cc0_scratch0

/-! ## The body's triple, case by case -/

set_option maxHeartbeats 2000000 in
/-- FIRST of a group (`k = 0`): the accumulator is zeroed and then holds zeros + keys-block · weights-block; the output
    window's buffer is handed back untouched. -/
theorem sound0_A (c : Dev nD) (E : Set ℕ) (i : grid0.Coords) (arg2 : Memref sig .tc .vmem S512x1024 .f32) (harg2 : arg2.IsWhole) (arg3 : Memref sig .tc .vmem S1024x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S512x1024 .f32) (harg6 : arg6.IsWhole)
    (hc0 : cond0_0 i) (hc1 : ¬cond0_1 i)
    (x0 : Vec F S512x1024 .f32) (x1 : Vec F S1024x1024 .f32) (x2 : Vec F S512x1024 .f32) (xi3 : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k0_pay2 x0 x1 k0_pay1)) -∗ K ⟨⟩))
      ⊢ wp frame (wpE (defs₀ (F := F)) Variants.none c none) E (cc0__stage_a_kernel i arg2 harg2 arg3 harg3 arg4 harg4 arg5 harg5 arg6 harg6) K := by
  simp only [cc0__stage_a_kernel_eq_skeleton]; unfold cc0__stage_a_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero off_zero inb_S512x1024_S512x1024_0_0 y⟩),
    View.canon_cons_unit_zero (S := S512x1024) off_zero]
  simp only [View.readAt_eq_ld, View.ld_unit_zero (S := S512x1024) off_zero, View.ld_unit_zero (S := S1024x1024) off_zero,
    View.readCov_unit_zero (S := S512x1024) _ off_zero]

set_option maxHeartbeats 2000000 in
/-- MIDDLE of a group (`k = 1, 2`): the accumulator, found at `xs`, ends at `xs` + keys-block · weights-block; the output
    window's buffer is handed back untouched. -/
theorem sound0_B (c : Dev nD) (E : Set ℕ) (i : grid0.Coords) (arg2 : Memref sig .tc .vmem S512x1024 .f32) (harg2 : arg2.IsWhole) (arg3 : Memref sig .tc .vmem S1024x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S512x1024 .f32) (harg6 : arg6.IsWhole)
    (hc0 : ¬cond0_0 i) (hc1 : ¬cond0_1 i)
    (x0 : Vec F S512x1024 .f32) (x1 : Vec F S1024x1024 .f32) (x2 : Vec F S512x1024 .f32) (xi3 : Vec F S512x1024 .f32) (xs : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k0_pay2 x0 x1 xs)) -∗ K ⟨⟩))
      ⊢ wp frame (wpE (defs₀ (F := F)) Variants.none c none) E (cc0__stage_a_kernel i arg2 harg2 arg3 harg3 arg4 harg4 arg5 harg5 arg6 harg6) K := by
  simp only [cc0__stage_a_kernel_eq_skeleton]; unfold cc0__stage_a_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  subst hf0; subst hf1; subst hf2; subst hf3; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H6
  ipureintro
  sl_unfold_words
  rw [View.read_writes_eq_canon _ _ _ (fun y => ⟨_, List.mem_cons_self, View.mem_set_unit_zero off_zero inb_S512x1024_S512x1024_0_0 y⟩),
    View.canon_cons_unit_zero (S := S512x1024) off_zero]
  simp only [View.readAt_eq_ld, View.ld_unit_zero (S := S512x1024) off_zero, View.ld_unit_zero (S := S1024x1024) off_zero,
    View.readCov_unit_zero (S := S512x1024) _ off_zero]

set_option maxHeartbeats 2000000 in
/-- LAST of a group (`k = 3`): the accumulator, found at `xs`, ends at `acc = xs` + keys-block · weights-block, and the
    output window's buffer at `acc` − vals-block. -/
theorem sound0_C (c : Dev nD) (E : Set ℕ) (i : grid0.Coords) (arg2 : Memref sig .tc .vmem S512x1024 .f32) (harg2 : arg2.IsWhole) (arg3 : Memref sig .tc .vmem S1024x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S512x1024 .f32) (harg6 : arg6.IsWhole)
    (hc0 : ¬cond0_0 i) (hc1 : cond0_1 i)
    (x0 : Vec F S512x1024 .f32) (x1 : Vec F S1024x1024 .f32) (x2 : Vec F S512x1024 .f32) (xs : Vec F S512x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 x0 x1 xs) x2)
            ∗ owns (c : Thread nD τ) arg6 fullShare (k0_pay2 x0 x1 xs)) -∗ K ⟨⟩))
      ⊢ wp frame (wpE (defs₀ (F := F)) Variants.none c none) E (cc0__stage_a_kernel i arg2 harg2 arg3 harg3 arg4 harg4 arg5 harg5 arg6 harg6) K := by
  simp only [cc0__stage_a_kernel_eq_skeleton]; unfold cc0__stage_a_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero off_zero inb_S512x1024_S512x1024_0_0 y⟩),
      View.canon_cons_unit_zero (S := S512x1024) off_zero]
    simp only [View.readAt_eq_ld, View.ld_unit_zero (S := S512x1024) off_zero, View.ld_unit_zero (S := S1024x1024) off_zero,
      View.readCov_unit_zero (S := S512x1024) _ off_zero]
  iexists _; isplitr
  swap; · iexact H6
  ipureintro
  sl_unfold_words
  rw [View.read_writes_eq_canon _ _ _ (fun y => ⟨_, List.mem_cons_self, View.mem_set_unit_zero off_zero inb_S512x1024_S512x1024_0_0 y⟩),
    View.canon_cons_unit_zero (S := S512x1024) off_zero]
  simp only [View.readAt_eq_ld, View.ld_unit_zero (S := S512x1024) off_zero, View.ld_unit_zero (S := S1024x1024) off_zero,
    View.readCov_unit_zero (S := S512x1024) _ off_zero]

/-! ## The accumulator, point by point -/

/-- What the scratch accumulator holds after the body at position `n`: keys-block · weights-block added to zeros at
    the first point of a group (`n ≡ 0 mod 4`) and to what the point before left otherwise. -/
def accAt0 (c : Dev nD) : (n : ℕ) → n < cfg0.N → Vec F S512x1024 .f32
  | 0, hn => k0_pay2 (iblk0 V c 0 ⟨0, hn⟩) (iblk0 V c 1 ⟨0, hn⟩) k0_pay1
  | n + 1, hn =>
    if (n + 1) % 4 = 0 then k0_pay2 (iblk0 V c 0 ⟨n + 1, hn⟩) (iblk0 V c 1 ⟨n + 1, hn⟩) k0_pay1
    else k0_pay2 (iblk0 V c 0 ⟨n + 1, hn⟩) (iblk0 V c 1 ⟨n + 1, hn⟩) (accAt0 c n (Nat.lt_of_succ_lt hn))

/-- At the first point of a group the accumulator restarts from zeros. -/
theorem accAt0_first (c : Dev nD) (t : Fin cfg0.N) (h0 : t.val % 4 = 0) :
    accAt0 V c t.val t.isLt = k0_pay2 (iblk0 V c 0 t) (iblk0 V c 1 t) k0_pay1 := by
  obtain ⟨n, hn⟩ := t
  cases n with
  | zero => rfl
  | succ n => exact if_pos h0

/-- At any other point it adds to what the point before left. -/
theorem accAt0_next (c : Dev nD) (t : Fin cfg0.N) (h0 : ¬t.val % 4 = 0) :
    accAt0 V c t.val t.isLt
      = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => exact if_neg h0

/-! ## The region invariant -/

/-- The core's scoped buffers other than this call's staging buffers and its scratch (the second call's staging
    buffers), each whole at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch split out as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0; rw [scopedRest0_eq]; simp only [scM0, owns_whole]; rfl

/-- The region invariant before position `n`: before the first point every scoped buffer at anything; afterwards the
    accumulator at what the point before left in it, the other scoped buffers at anything, the generator register at
    some state. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (accAt0 V c n hn) ∗ others0 c) ∗ (∃ r, prngReg c r)) := rfl

theorem PhiS0_pos (c : Dev nD) (n : ℕ) (h : n ≤ cfg0.N) (hz : n ≠ 0) :
    PhiS0 V c n h = iprop((owns (c : Thread nD τ) scM0 fullShare (accAt0 V c (n - 1) (by omega)) ∗ others0 c) ∗ (∃ r, prngReg c r)) := by
  cases n with
  | zero => exact absurd rfl hz
  | succ n => rfl

/-! ## The proof data -/

/-- The proof data of the first pipeline on core `c`: the arrays as the region finds them; after the body at point
    `t` each input's buffer still at its block and the output's at (accumulator after `t`) − vals-block (read only
    at the points that write it back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- What the body leaves in the output window's buffer at point `t`. -/
theorem after0_3 (c : Dev nD) (t : Fin cfg0.N) :
    (dat0 V c).after 3 t = k0_pay3 (accAt0 V c t.val t.isLt) (iblk0 V c 2 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' memrefs hold their blocks; the closed forms say which case the point is in; the
    invariant hands the body the accumulator at what the point before left (at anything at the very first point) and
    takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (st0_0 t) fullShare ((dat0 V c).after 0 t) from by
        unfold Dat.leavesExact; rw [liveAt0_0 t],
      show (dat0 V c).leavesExact 1 t = owns (c : Thread nD τ) (st0_1 t) fullShare ((dat0 V c).after 1 t) from by
        unfold Dat.leavesExact; rw [liveAt0_1 t],
      show (dat0 V c).leavesExact 2 t = owns (c : Thread nD τ) (st0_2 t) fullShare ((dat0 V c).after 2 t) from by
        unfold Dat.leavesExact; rw [liveAt0_2 t],
      after0_0, after0_1, after0_2]
  by_cases h1 : t.val % 4 = 3
  · -- last of its group
    have h0 : ¬t.val % 4 = 0 := by omega
    have hz : t.val ≠ 0 := by omega
    rw [show (dat0 V c).leavesExact 3 t = owns (c : Thread nD τ) (st0_3 t) fullShare ((dat0 V c).after 3 t) from by
          unfold Dat.leavesExact; rw [liveAt0_3 t ((hcond0_1 t).mpr h1)], after0_3]
    rw [accAt0_next V c t h0, PhiS0_castSucc V c t, PhiS0_pos V c _ _ hz]
    iintro ⟨⟨⟨HS, Hoth⟩, Hg⟩, Ho, ⟨%d0, H0⟩, ⟨%d1, H1⟩, ⟨%d2, H2⟩, ⟨%d3, H3⟩⟩
    iapply (sound0_C c Set.univ (grid0.coords t) _ _ _ _ _ _ _ _ _ _ (fun h => h0 ((hcond0_0 t).mp h)) ((hcond0_1 t).mpr h1)
      (iblk0 V c 0 t) (iblk0 V c 1 t) (iblk0 V c 2 t) (accAt0 V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hnc1 : ¬cond0_1 (grid0.coords t) := fun h => h1 ((hcond0_1 t).mp h)
    rw [Dat.leavesExact_idle (dat0 V c) 3 t (idleAt0_3 t hnc1) (noFlush0_3 t hnc1)]
    by_cases h0 : t.val % 4 = 0
    · -- first of its group
      rw [accAt0_first V c t h0]
      by_cases hz : t.val = 0
      · rw [PhiS0_castSucc V c t, PhiS0_zero V c _ _ hz, PhiA0_eq]
        iintro ⟨⟨⟨HS, Hoth⟩, Hg⟩, Ho, ⟨%d0, H0⟩, ⟨%d1, H1⟩, ⟨%d2, H2⟩, ⟨%d3, H3⟩⟩
        iapply (sound0_A c Set.univ (grid0.coords t) _ _ _ _ _ _ _ _ _ _ ((hcond0_0 t).mpr h0) hnc1
          (iblk0 V c 0 t) (iblk0 V c 1 t) (iblk0 V c 2 t) _ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, Hoth⟩, Hg⟩, Ho, ⟨%d0, H0⟩, ⟨%d1, H1⟩, ⟨%d2, H2⟩, ⟨%d3, H3⟩⟩
        iapply (sound0_A c Set.univ (grid0.coords t) _ _ _ _ _ _ _ _ _ _ ((hcond0_0 t).mpr h0) hnc1
          (iblk0 V c 0 t) (iblk0 V c 1 t) (iblk0 V c 2 t) _ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        isplitl [H2]; · iexact H2
        iexists _; iexact H3
    · -- middle of its group
      have hz : t.val ≠ 0 := fun e => h0 (by rw [e])
      rw [accAt0_next V c t h0, PhiS0_castSucc V c t, PhiS0_pos V c _ _ hz]
      iintro ⟨⟨⟨HS, Hoth⟩, Hg⟩, Ho, ⟨%d0, H0⟩, ⟨%d1, H1⟩, ⟨%d2, H2⟩, ⟨%d3, H3⟩⟩
      iapply (sound0_B c Set.univ (grid0.coords t) _ _ _ _ _ _ _ _ _ _ (fun h => h0 ((hcond0_0 t).mp h)) hnc1
        (iblk0 V c 0 t) (iblk0 V c 1 t) (iblk0 V c 2 t) _ (accAt0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into and out of the invariant -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS, Hoth⟩, Hg⟩
  isplitl [HS Hoth]
  · isplitl [HS]; · iexists _; iexact HS
    iexact Hoth
  iexact Hg

end Cert.KernelIdeal.Hand

end
-- ==== Proof.Ideal.Region1.lean ====
/-
  The second pallas_call (the weight update) as a pipeline region, at any float instance and at any contents `V`
  of the core's buffers when the region is entered.

  At grid point `t = (mi, ni)` the body reads three whole staging buffers — the column block `mi` of the keys
  (512 × 1024), the column block `ni` of the first call's result (512 × 1024), and the tile `(mi, ni)` of the
  weights (1024 × 1024) — and overwrites the whole output buffer with ONE pure function of them, the skeleton's
  `k1_pay1`: weights − c · (keysᵀ · diff), the product contracting the 512 rows. Every load and the store go through the
  whole-buffer rectangle at offset zero, so a load reads the buffer's contents and the store leaves its payload.
-/
import proofs.«158181_j27822798143729_1_alg».proof.Proof.Gen.KernelIdeal.Launch
import proofs.«158181_j27822798143729_1_alg».proof.Proof.Gen.KernelIdeal.Skeleton
import proofs.«158181_j27822798143729_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer access, however they are spelt. -/
private theorem off_zero : (![0, 0] : Fin 2 → Nat) = fun _ => 0 := by
  funext a; fin_cases a <;> rfl

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's triple -/

set_option maxHeartbeats 1000000 in
/-- On whole staging memrefs, the three inputs at contents `x0`, `x1`, `x2` and the output at anything, the body runs
    to a state with the inputs as they were and the output at `k1_pay1 x0 x1 x2`. -/
theorem sound_kernel1 (c : Dev nD) (E : Set ℕ) (i : grid1.Coords)
    (arg2 : Memref sig .tc .vmem S512x1024 .f32) (harg2 : arg2.IsWhole) (arg3 : Memref sig .tc .vmem S512x1024 .f32) (harg3 : arg3.IsWhole)
    (arg4 : Memref sig .tc .vmem S1024x1024 .f32) (harg4 : arg4.IsWhole) (arg5 : Memref sig .tc .vmem S1024x1024 .f32) (harg5 : arg5.IsWhole)
    (x0 : Vec F S512x1024 .f32) (x1 : Vec F S512x1024 .f32) (x2 : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 x0 x1 x2)) -∗ K ⟨⟩))
      ⊢ wp frame (wpE (defs₀ (F := F)) Variants.none c none) E (cc1__stage_b_kernel i arg2 harg2 arg3 harg3 arg4 harg4 arg5 harg5) K := by
  simp only [cc1__stage_b_kernel_eq_skeleton]; unfold cc1__stage_b_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero off_zero inb_S1024x1024_S1024x1024_0_0 y⟩),
    View.canon_unit_zero off_zero]
  simp only [View.readAt_eq_ld, View.ld_unit_zero (S := S512x1024) off_zero, View.ld_unit_zero (S := S1024x1024) off_zero]

/-! ## The proof data -/

/-- The proof data of the second pipeline on core `c`: the arrays as the region finds them; after the body at point
    `t` each input's buffer still at its block and the output's at `k1_pay1` of the three input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- What the body leaves in the output window's buffer at point `t`. -/
theorem after1_3 (c : Dev nD) (t : Fin cfg1.N) :
    (dat1 V c).after 3 t = k1_pay1 (iblk1 V c 0 t) (iblk1 V c 1 t) (iblk1 V c 2 t) := by dsimp only [dat1]

/-- Each input's current staging buffer holds its block at every point, fetched there or not: where the pipeline
    does not fetch, the block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Run.lean ====
/-
  The whole run of the two pallas_calls, at any float instance: the contents of the core's unscoped buffers at the
  three boundaries (launch; after the first call, whose result array holds what its write-backs leave; after the
  second), each call as a region over the thread state "every unscoped buffer at the boundary's contents, the
  generator register at some state, nothing owed", and the run itself: every weakly fair execution terminates with
  every unscoped buffer at the last boundary's contents. The frame claim and the value of the result are read off that.
-/
import proofs.«158181_j27822798143729_1_alg».proof.Proof.Ideal.Region0
import proofs.«158181_j27822798143729_1_alg».proof.Proof.Ideal.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 (c : Dev nD) : Valuation τ sig (Elt F) := fun b => m (c, b)
/-- The same read at the TensorCore's references: what the first call's proof data take. -/
abbrev V0 : (c : Dev nD) → (b : Ref sig .tc) → Buf (Elt F) ((c : Thread nD τ).loc b) := fun c b => W0 m c b
/-- After the first call: its arrays at what the pipeline leaves (the inputs as entered, the result's write-backs
    folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the second call's proof data take. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second call. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ### What the second call finds: the arguments as launched, the first call's result array -/

theorem V1_main_arg0 (c : Dev nD) : V1 m c main_arg0 = m ((c : Thread nD τ).loc main_arg0) :=
  (W1_arr m c 1).trans (((dat0 (V0 m) c).arrAt_in 1 rfl _).trans (A_eq0 (V0 m) c 1))
theorem V1_main_arg1 (c : Dev nD) : V1 m c main_arg1 = m ((c : Thread nD τ).loc main_arg1) :=
  (W1_arr m c 0).trans (((dat0 (V0 m) c).arrAt_in 0 rfl _).trans (A_eq0 (V0 m) c 0))
theorem V1_main_arg2 (c : Dev nD) : V1 m c main_arg2 = m ((c : Thread nD τ).loc main_arg2) :=
  (W1_arr m c 2).trans (((dat0 (V0 m) c).arrAt_in 2 rfl _).trans (A_eq0 (V0 m) c 2))
/-- The first call's result array as the second call finds it. -/
theorem V1_main_v0 (c : Dev nD) : V1 m c main_v0 = (dat0 (V0 m) c).arrAt 3 cfg0.N := W1_arr m c 3

/-! ### The end: the arguments as launched, the result at what the second call's write-backs leave -/

theorem W2_main_arg0 (c : Dev nD) : W2 m c (Proc.devRef .tc main_arg0) = m ((c : Thread nD τ).loc main_arg0) :=
  (W2_arr m c 2).trans (((dat1 (V1 m) c).arrAt_in 2 rfl _).trans ((A_eq1 (V1 m) c 2).trans (V1_main_arg0 m c)))
theorem W2_main_arg1 (c : Dev nD) : W2 m c (Proc.devRef .tc main_arg1) = m ((c : Thread nD τ).loc main_arg1) :=
  (W2_arr m c 0).trans (((dat1 (V1 m) c).arrAt_in 0 rfl _).trans ((A_eq1 (V1 m) c 0).trans (V1_main_arg1 m c)))
theorem W2_main_arg2 (c : Dev nD) : W2 m c (Proc.devRef .tc main_arg2) = m ((c : Thread nD τ).loc main_arg2) :=
  (W2_of_ne m c main_arg2 (by decide)).trans (V1_main_arg2 m c)
/-- The program's result array at the end. -/
theorem W2_main_v1 (c : Dev nD) : W2 m c (Proc.devRef .tc main_v1) = (dat1 (V1 m) c).arrAt 3 cfg1.N := W2_arr m c 3

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W2 m c) ∗ ∃ r, prngReg c r)

/-! ## The two calls as segments -/

set_option backward.isDefEq.respectTransparency.types false in
/-- THE FIRST CALL over the thread state: entered from every unscoped buffer at launch contents, left at `W1`. Its
    arrays are split out of the unscoped buffers and put back at the exit contents; the generator register goes into the
    invariant and comes out; the accumulator's contents are forgotten at the exit; nothing owed; no semaphore of the
    kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m) () defs₀ 𝒱₀ L lv) :=
  [ .region (reg0 m), .region (reg1 m) ]
/-- @main IS the run of the segments. -/
theorem main_run (c : Dev nD) : main (F := F) c = Pipeline.Seg.run (segs m) := (main_chain c).trans (by chain_rfl)

set_option backward.isDefEq.respectTransparency.types false in
/-- THE RUN. From any memory with zero counters, every weakly fair execution of @main on the TensorCore terminates,
    nothing faulting, and every final state holds every unscoped buffer at the last boundary's contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME, at any float instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- The run with the result array named: it ends at what the second call's write-backs leave. -/
theorem run_value : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.KernelIdeal.Hand

end
-- ==== Proof.Ideal.Spec.lean ====
/-
  The mathematics of the two programs, over literal shapes and with no program in sight.

  Inputs: keys, vals of shape 512 × 4096 and W of shape 4096 × 4096. The kernel computes in two stages

    diff(r, j)  = ((((0 + P₀) + P₁) + P₂) + P₃) − vals(r, j),   P_b = Σ_{q < 1024} keys(r, 1024·b + q) · W(1024·b + q, j)
    out(i, j)   = W(i, j) − κ · Σ_{r < 512} keys(r, i) · diff(r, j)

  with κ the float word 0x33CCCCCD. On real inputs both are one real closed form, `realOut`:

    W(i, j) − (13421773 / 2⁴⁷) · Σ_r keys(r, i) · (Σ_{q < 4096} keys(r, q) · W(q, j) − vals(r, j)),

  since the word 0x33CCCCCD denotes exactly 13421773 · 2⁻⁴⁷ and the four partial sums split the full contraction.
  The reference's gradient step is the same closed form: its learning rate is the word 0x3DCCCCCD = 13421773 · 2⁻²⁷ and
  its mean-square-error gradient carries the exact factor 2 / 2²¹ = 2⁻²⁰.
-/
import Idealize.ShloMosaic.PureOps.Ideal
import Idealize.ShloMosaic.Lib.ValueIdx

noncomputable section

open scoped BigOperators

namespace Cert.Spec

open Idealize.ShloMosaic Idealize.ShloMosaic.ValueIdx

/-- The shape of keys, vals and the first stage's result. -/
abbrev SK : Shape := ⟨2, ![512, 4096]⟩
/-- The shape of the weights and of the result. -/
abbrev SW : Shape := ⟨2, ![4096, 4096]⟩

/-! ## The kernel's two stages on extended reals -/

/-- Row `r` of keys against column `j` of W over the contraction block `b` (1024 wide). -/
def partialDot (keys : SK.Idx → EReal) (W : SW.Idx → EReal) (r : Fin 512) (j : Fin 4096) (b : Fin 4) : EReal :=
  ∑ q : Fin 1024, keys (ix2 r ⟨1024 * b.val + q.val, by omega⟩) * W (ix2 ⟨1024 * b.val + q.val, by omega⟩ j)

/-- The first stage at (r, j): the four partial sums added in order to a zero, less vals. -/
def diffAt (keys : SK.Idx → EReal) (W : SW.Idx → EReal) (vals : SK.Idx → EReal) (r : Fin 512) (j : Fin 4096) : EReal :=
  ((((Ideal.ofBits .f32 0x00000000#32 + partialDot keys W r j 0) + partialDot keys W r j 1) + partialDot keys W r j 2)
    + partialDot keys W r j 3) - vals (ix2 r j)

/-- The first stage's whole result array. -/
def diffG (keys : SK.Idx → EReal) (W : SW.Idx → EReal) (vals : SK.Idx → EReal) : SK.Idx → EReal :=
  fun y => diffAt keys W vals (y 0) (y 1)

/-- The second stage at (i, j): the weight less κ times column `i` of keys against column `j` of diff. -/
def updAt (keys diff : SK.Idx → EReal) (W : SW.Idx → EReal) (i j : Fin 4096) : EReal :=
  W (ix2 i j) - Ideal.ofBits .f32 0x33CCCCCD#32 * ∑ r : Fin 512, keys (ix2 r i) * diff (ix2 r j)

/-- The second stage's whole result array. -/
def updG (keys diff : SK.Idx → EReal) (W : SW.Idx → EReal) : SW.Idx → EReal :=
  fun y => updAt keys diff W (y 0) (y 1)

/-! ## The real closed form -/

/-- Real arrays read as extended-real ones. -/
def liftK (k : Fin 512 → Fin 4096 → ℝ) : SK.Idx → EReal := fun y => ((k (y 0) (y 1) : ℝ) : EReal)
def liftW (w : Fin 4096 → Fin 4096 → ℝ) : SW.Idx → EReal := fun y => ((w (y 0) (y 1) : ℝ) : EReal)

theorem liftK_ix2 (k : Fin 512 → Fin 4096 → ℝ) (r : Fin 512) (j : Fin 4096) : liftK k (ix2 r j) = ((k r j : ℝ) : EReal) := rfl
theorem liftW_ix2 (w : Fin 4096 → Fin 4096 → ℝ) (i j : Fin 4096) : liftW w (ix2 i j) = ((w i j : ℝ) : EReal) := rfl

/-- One gradient step on real data: W − (0.1 as a float) · 2⁻²⁰ · keysᵀ · (keys · W − vals). -/
def realOut (k : Fin 512 → Fin 4096 → ℝ) (w : Fin 4096 → Fin 4096 → ℝ) (v : Fin 512 → Fin 4096 → ℝ) (i j : Fin 4096) : ℝ :=
  w i j - (13421773 / 2 ^ 47 : ℝ) * ∑ r : Fin 512, k r i * ((∑ q : Fin 4096, k r q * w q j) - v r j)

end Cert.Spec

end
-- ==== Proof.Ideal.Value0.lean ====
/-
  What the first pallas_call leaves in its result array, at the ideal instance: the first stage `diffG` of the arrays it
  was entered with.
-/
import proofs.«158181_j27822798143729_1_alg».proof.Proof.Ideal.Region0
import proofs.«158181_j27822798143729_1_alg».proof.Proof.Ideal.Spec
import Idealize.ShloMosaic.PureOps.Ideal.Laws
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The contraction of one block pair, read at an index -/

/-- The left operand of the block product is read at the result's row … -/
theorem lhs_blockdot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- … and at the contracted position on its second axis; -/
theorem lhs_blockdot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand at the contracted position on its first axis … -/
theorem rhs_blockdot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- … and at the result's column. -/
theorem rhs_blockdot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a 512 × 1024 block with a 1024 × 1024 block into a zero accumulator, at (r, q): row r of the
    first against column q of the second. -/
theorem blockdot_apply (a : FVec Ideal S512x1024 .bf16) (b : FVec Ideal S1024x1024 .bf16) (r : Fin 512) (q : Fin 1024) :
    matmul (F := Ideal) dot_S512x1024_S1024x1024_S512x1024_1_0_0_1_n_n none a b (constant (F := Ideal) S512x1024 .f32 0x00000000#32) (ix2 r q)
      = ∑ k : Fin 1024, a (ix2 r k) * b (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r q) ((contrEquiv1 dot_S512x1024_S1024x1024_S512x1024_1_0_0_1_n_n 1024 rfl rfl).symm k) = ix2 r k := funext fun d => Fin.ext (by
    match d with
    | ⟨0, _⟩ => exact lhs_blockdot_0 _ _
    | ⟨1, _⟩ => exact (lhs_blockdot_1 _ _).trans hk)
  have er : dot_S512x1024_S1024x1024_S512x1024_1_0_0_1_n_n.rhsIdx (ix2 r q) ((contrEquiv1 dot_S512x1024_S1024x1024_S512x1024_1_0_0_1_n_n 1024 rfl rfl).symm k) = ix2 k q := funext fun d => Fin.ext (by
    match d with
    | ⟨0, _⟩ => exact (rhs_blockdot_0 _ _).trans hk
    | ⟨1, _⟩ => exact rhs_blockdot_1 _ _)
  rw [el, er]

/-! ## The body's three values, read at an index -/

/-- The value the accumulator restarts from is the zero word everywhere. -/
theorem restart_apply (r : Fin 512) (q : Fin 1024) :
    (k0_pay1 (F := Ideal)) (ix2 r q) = Ideal.ofBits .f32 0x00000000#32 := by
  unfold k0_pay1
  rw [shapeCast_self]
  rfl

/-- One step of the accumulation at (r, q): what was there plus row r of the keys block against column q of the
    weights block (the narrowing of both operands changes no extended real). -/
theorem step_apply (x0 : Vec Ideal S512x1024 .f32) (x1 : Vec Ideal S1024x1024 .f32) (acc : Vec Ideal S512x1024 .f32)
    (r : Fin 512) (q : Fin 1024) :
    k0_pay2 x0 x1 acc (ix2 r q) = acc (ix2 r q) + ∑ k : Fin 1024, x0 (ix2 r k) * x1 (ix2 k q) := by
  unfold k0_pay2
  rw [shapeCast_self, addf_apply, blockdot_apply]
  rfl

/-- What the last point of a group hands to the result: the accumulator less the vals block, entry by entry. -/
theorem last_apply (acc v : Vec Ideal S512x1024 .f32) (r : Fin 512) (q : Fin 1024) :
    k0_pay3 acc v (ix2 r q) = acc (ix2 r q) - v (ix2 r q) := by
  unfold k0_pay3
  rfl

/-! ## Where each window's block sits in its array -/

/-- The four index maps over the sixteen points: the keys block moves with the contraction block (the point modulo 4),
    the weights block with the pair (contraction block, column block), the vals block and the result block with the
    column block (the point divided by 4). -/
theorem block_indices : ∀ t : Fin cfg0.N,
      win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- The keys block at a point, entry (r, k): keys at row r, column 1024·(contraction block) + k. -/
theorem keys_block (c : Dev nD) (t : Fin cfg0.N) (r : Fin 512) (k : Fin 1024) :
    iblk0 V c 0 t (ix2 r k) = V c main_arg1 (ix2 r ⟨1024 * (t.val % 4) + k.val, by omega⟩) := by
  obtain ⟨e0, e1, -⟩ := block_indices t
  show V c main_arg1 (((cfg0.win 0).blk t).view.emb (ix2 r k)) = V c main_arg1 _
  refine congrArg _ (funext fun a => Fin.ext ?_)
  match a with
  | ⟨0, _⟩ => show win0_0.index t (0 : Fin 2) * 512 + 1 * r.val = r.val; omega
  | ⟨1, _⟩ => show win0_0.index t (1 : Fin 2) * 1024 + 1 * k.val = 1024 * (t.val % 4) + k.val; omega

/-- The weights block at a point, entry (k, q): W at row 1024·(contraction block) + k, column 1024·(column block) + q. -/
theorem weights_block (c : Dev nD) (t : Fin cfg0.N) (k : Fin 1024) (q : Fin 1024) :
    iblk0 V c 1 t (ix2 k q)
      = V c main_arg0 (ix2 (⟨1024 * (t.val % 4) + k.val, by omega⟩ : Fin 4096) (⟨1024 * (t.val / 4) + q.val, by have := t.isLt; have : cfg0.N = 16 := N_0; omega⟩ : Fin 4096)) := by
  obtain ⟨-, -, e0, e1, -⟩ := block_indices t
  show V c main_arg0 (((cfg0.win 1).blk t).view.emb (ix2 k q)) = V c main_arg0 _
  refine congrArg _ (funext fun a => Fin.ext ?_)
  match a with
  | ⟨0, _⟩ => show win0_1.index t (0 : Fin 2) * 1024 + 1 * k.val = 1024 * (t.val % 4) + k.val; omega
  | ⟨1, _⟩ => show win0_1.index t (1 : Fin 2) * 1024 + 1 * q.val = 1024 * (t.val / 4) + q.val; omega

/-- The vals block at a point, entry (r, q): vals at row r, column 1024·(column block) + q. -/
theorem vals_block (c : Dev nD) (t : Fin cfg0.N) (r : Fin 512) (q : Fin 1024) :
    iblk0 V c 2 t (ix2 r q)
      = V c main_arg2 (ix2 r (⟨1024 * (t.val / 4) + q.val, by have := t.isLt; have : cfg0.N = 16 := N_0; omega⟩ : Fin 4096)) := by
  obtain ⟨-, -, -, -, e0, e1, -⟩ := block_indices t
  show V c main_arg2 (((cfg0.win 2).blk t).view.emb (ix2 r q)) = V c main_arg2 _
  refine congrArg _ (funext fun a => Fin.ext ?_)
  match a with
  | ⟨0, _⟩ => show win0_2.index t (0 : Fin 2) * 512 + 1 * r.val = r.val; omega
  | ⟨1, _⟩ => show win0_2.index t (1 : Fin 2) * 1024 + 1 * q.val = 1024 * (t.val / 4) + q.val; omega

/-- The result block at a point, entry (r, q), sits in the result at row r, column 1024·(column block) + q. -/
theorem result_block (t : Fin cfg0.N) (r : Fin 512) (q : Fin 1024) :
    ((cfg0.win 3).blk t).view.emb (ix2 r q)
      = ix2 r (⟨1024 * (t.val / 4) + q.val, by have := t.isLt; have : cfg0.N = 16 := N_0; omega⟩ : Fin 4096) := by
  obtain ⟨-, -, -, -, -, -, e0, e1⟩ := block_indices t
  refine funext fun a => Fin.ext ?_
  match a with
  | ⟨0, _⟩ => show win0_3.index t (0 : Fin 2) * 512 + 1 * r.val = r.val; omega
  | ⟨1, _⟩ => show win0_3.index t (1 : Fin 2) * 1024 + 1 * q.val = 1024 * (t.val / 4) + q.val; omega

/-! ## The accumulator at the last point of a group -/

/-- One point's block product at (r, q) is the partial dot product of the arrays over that point's contraction block,
    at the result's column 1024·(column block) + q. -/
theorem blockdot_eq_partialDot (c : Dev nD) (s : Fin cfg0.N) (b : Fin 4) (hb : s.val % 4 = b.val) (n : ℕ) (hn : s.val / 4 = n)
    (r : Fin 512) (q : Fin 1024) (hj : 1024 * n + q.val < 4096)
    (x0 : Vec Ideal S512x1024 .f32) (x1 : Vec Ideal S1024x1024 .f32) (h0 : x0 = iblk0 V c 0 s) (h1 : x1 = iblk0 V c 1 s) :
    ∑ k : Fin 1024, x0 (ix2 r k) * x1 (ix2 k q)
      = partialDot (V c main_arg1) (V c main_arg0) r ⟨1024 * n + q.val, hj⟩ b := by
  subst hn h0 h1
  unfold partialDot
  refine Finset.sum_congr rfl fun k _ => ?_
  rw [keys_block V c s r k, weights_block V c s k q]
  simp only [hb]

/-- At the last point of a group (point ≡ 3 mod 4) the accumulator holds, at (r, q), the zero it restarted from three
    points earlier plus the four partial dot products in the order of the contraction blocks: the three points before
    it share its column block and run through contraction blocks 0, 1, 2. -/
theorem acc_last (c : Dev nD) (t : Fin cfg0.N) (h3 : t.val % 4 = 3) (r : Fin 512) (q : Fin 1024)
    (hj : 1024 * (t.val / 4) + q.val < 4096) :
    accAt0 V c t.val t.isLt (ix2 r q)
      = (((Ideal.ofBits .f32 0x00000000#32
            + partialDot (V c main_arg1) (V c main_arg0) r ⟨1024 * (t.val / 4) + q.val, hj⟩ 0)
            + partialDot (V c main_arg1) (V c main_arg0) r ⟨1024 * (t.val / 4) + q.val, hj⟩ 1)
            + partialDot (V c main_arg1) (V c main_arg0) r ⟨1024 * (t.val / 4) + q.val, hj⟩ 2)
            + partialDot (V c main_arg1) (V c main_arg0) r ⟨1024 * (t.val / 4) + q.val, hj⟩ 3 := by
  have ht := t.isLt
  have a0 : accAt0 V c t.val t.isLt = k0_pay2 (iblk0 V c 0 t) (iblk0 V c 1 t) (accAt0 V c (t.val - 1) (by omega)) :=
    accAt0_next V c t (by omega)
  have a1 : accAt0 V c (t.val - 1) (by omega)
      = k0_pay2 (iblk0 V c 0 ⟨t.val - 1, by omega⟩) (iblk0 V c 1 ⟨t.val - 1, by omega⟩) (accAt0 V c (t.val - 1 - 1) (by omega)) :=
    accAt0_next V c ⟨t.val - 1, by omega⟩ (by show ¬(t.val - 1) % 4 = 0; omega)
  have a2 : accAt0 V c (t.val - 1 - 1) (by omega)
      = k0_pay2 (iblk0 V c 0 ⟨t.val - 1 - 1, by omega⟩) (iblk0 V c 1 ⟨t.val - 1 - 1, by omega⟩) (accAt0 V c (t.val - 1 - 1 - 1) (by omega)) :=
    accAt0_next V c ⟨t.val - 1 - 1, by omega⟩ (by show ¬(t.val - 1 - 1) % 4 = 0; omega)
  have a3 : accAt0 V c (t.val - 1 - 1 - 1) (by omega)
      = k0_pay2 (iblk0 V c 0 ⟨t.val - 1 - 1 - 1, by omega⟩) (iblk0 V c 1 ⟨t.val - 1 - 1 - 1, by omega⟩) (k0_pay1 (F := Ideal)) :=
    accAt0_first V c ⟨t.val - 1 - 1 - 1, by omega⟩ (by show (t.val - 1 - 1 - 1) % 4 = 0; omega)
  rw [a0, step_apply (iblk0 V c 0 t) (iblk0 V c 1 t) _ r q,
    a1, step_apply (iblk0 V c 0 ⟨t.val - 1, by omega⟩) (iblk0 V c 1 ⟨t.val - 1, by omega⟩) _ r q,
    a2, step_apply (iblk0 V c 0 ⟨t.val - 1 - 1, by omega⟩) (iblk0 V c 1 ⟨t.val - 1 - 1, by omega⟩) _ r q,
    a3, step_apply (iblk0 V c 0 ⟨t.val - 1 - 1 - 1, by omega⟩) (iblk0 V c 1 ⟨t.val - 1 - 1 - 1, by omega⟩) _ r q,
    restart_apply r q,
    blockdot_eq_partialDot V c t 3 h3 (t.val / 4) rfl r q hj _ _ rfl rfl,
    blockdot_eq_partialDot V c ⟨t.val - 1, by omega⟩ 2 (by show (t.val - 1) % 4 = 2; omega) (t.val / 4) (by show (t.val - 1) / 4 = t.val / 4; omega) r q hj _ _ rfl rfl,
    blockdot_eq_partialDot V c ⟨t.val - 1 - 1, by omega⟩ 1 (by show (t.val - 1 - 1) % 4 = 1; omega) (t.val / 4) (by show (t.val - 1 - 1) / 4 = t.val / 4; omega) r q hj _ _ rfl rfl,
    blockdot_eq_partialDot V c ⟨t.val - 1 - 1 - 1, by omega⟩ 0 (by show (t.val - 1 - 1 - 1) % 4 = 0; omega) (t.val / 4) (by show (t.val - 1 - 1 - 1) / 4 = t.val / 4; omega) r q hj _ _ rfl rfl]

/-! ## From the blocks to the array -/

/-- What a last point of a group writes back is its block of the first stage of the arrays. -/
theorem flushed0_eq (c : Dev nD) (t : Fin cfg0.N) (h3 : t.val % 4 = 3) :
    (dat0 (F := Ideal) V c).flushed 3 t
      = ((cfg0.win 3).blk t).view.read (Elt Ideal) (diffG (V c main_arg1) (V c main_arg0) (V c main_arg2)) := by
  show (cfg0.win 3).cut (grid0.coords t) ((dat0 (F := Ideal) V c).after 3 t) = _
  rw [after0_3]
  funext j
  obtain ⟨r, q, rfl⟩ : ∃ (r : Fin 512) (q : Fin 1024), j = ix2 r q := ⟨j 0, j 1, eq_ix2 j⟩
  have hj : 1024 * (t.val / 4) + q.val < 4096 := by have := t.isLt; have : cfg0.N = 16 := N_0; omega
  show k0_pay3 (accAt0 V c t.val t.isLt) (iblk0 V c 2 t) (ix2 r q)
    = diffG (V c main_arg1) (V c main_arg0) (V c main_arg2) (((cfg0.win 3).blk t).view.emb (ix2 r q))
  rw [result_block t r q, last_apply _ _ r q, vals_block V c t r q, acc_last V c t h3 r q hj]
  rfl

/-- An index of the result lies in a point's block iff each coordinate lies in the block's range on its axis. -/
theorem mem_result_block (t : Fin cfg0.N) (i : S512x4096.Idx) :
    i ∈ ((cfg0.win 3).blk t).view.set
      ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

/-- Every entry (r, j) of the result lies in the block written back by the last point of column block j / 1024. -/
theorem result_covered (i : S512x4096.Idx) :
    ∃ t : Fin cfg0.N, (cfg0.win 3).flush t = true ∧ i ∈ ((cfg0.win 3).blk t).view.set := by
  have hN : cfg0.N = 16 := N_0
  have hi0 : (i 0).val < 512 := (i 0).isLt
  have hi1 : (i 1).val < 4096 := (i 1).isLt
  obtain ⟨t, hv⟩ : ∃ t : Fin cfg0.N, t.val = 4 * ((i 1).val / 1024) + 3 := ⟨⟨4 * ((i 1).val / 1024) + 3, by omega⟩, rfl⟩
  obtain ⟨-, -, -, -, -, -, e0, e1⟩ := block_indices t
  refine ⟨t, (flush0_3 t).mpr (by omega), ?_⟩
  rw [mem_result_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After the first call's sixteen points its result array holds the first stage of (keys, W, vals) as it found them. -/
theorem arr0_eq (c : Dev nD) :
    (dat0 (F := Ideal) V c).arrAt 3 cfg0.N = diffG (V c main_arg1) (V c main_arg0) (V c main_arg2) :=
  (dat0 (F := Ideal) V c).arrAt_eq_of_cover 3 _ (fun t hf => flushed0_eq V c t ((flush0_3 t).mp hf)) result_covered

end Cert.KernelIdeal.Hand

end
-- ==== Proof.Ideal.Value1.lean ====
/-
  What the second kernel call (the weight update) leaves in its result array, at the ideal instance: the second stage
  `updG` of the arrays it was entered with.

  The road. The body's arithmetic at entry (p, q) of its 1024 × 1024 result block is
      W-tile(p, q) − κ · Σ_{r < 512} keys-block(r, p) · diff-block(r, q),
  the product contracting the 512 rows of both operands (the narrowing format changes are the identity on extended
  reals, the accumulator is zero). At grid point t = 4·mi + ni the keys' block is column block mi, the first stage's
  block is column block ni and the weights' tile is (mi, ni), so the entry is the second stage at
  (1024·mi + p, 1024·ni + q): every point writes back its tile of ONE whole-array function, and the sixteen tiles fill the
  4096 × 4096 array.
-/
import proofs.«158181_j27822798143729_1_alg».proof.Proof.Ideal.Region1
import proofs.«158181_j27822798143729_1_alg».proof.Proof.Ideal.Spec
import Idealize.ShloMosaic.PureOps.Ideal.Laws
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

namespace Update

/-! ## The contraction's operand indices

The product contracts axis 0 of both operands. At output entry (i, j) and contraction coordinate k the left operand is
read at (k, i) and the right operand at (k, j): one lemma per operand and axis. -/

theorem lhs_upd_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
theorem lhs_upd_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
theorem rhs_upd_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
theorem rhs_upd_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- The product of two 512 × 1024 blocks contracting their rows, into a zero accumulator, at entry (p, q): column p of the
    first against column q of the second. -/
theorem colDot_apply (a b : FVec Ideal S512x1024 .bf16) (p q : Fin 1024) :
    matmul (F := Ideal) dot_S512x1024_S512x1024_S1024x1024_0_0_1_1_n_n none a b (constant (F := Ideal) S1024x1024 .f32 0x00000000#32) (ix2 p q)
      = ∑ r : Fin 512, a (ix2 r p) * b (ix2 r q) := by
  simp only [matmul]
  rw [Ideal.matmul_constant_zero_apply, ← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  have el : dot_S512x1024_S512x1024_S1024x1024_0_0_1_1_n_n.lhsIdx (ix2 p q) ((contrEquiv1 dot_S512x1024_S512x1024_S1024x1024_0_0_1_1_n_n 512 rfl rfl).symm k) = ix2 k p := funext fun a => Fin.ext (by
    match a with
    | ⟨0, _⟩ => exact (lhs_upd_0 _ _).trans hk
    | ⟨1, _⟩ => exact lhs_upd_1 _ _)
  have er : dot_S512x1024_S512x1024_S1024x1024_0_0_1_1_n_n.rhsIdx (ix2 p q) ((contrEquiv1 dot_S512x1024_S512x1024_S1024x1024_0_0_1_1_n_n 512 rfl rfl).symm k) = ix2 k q := funext fun a => Fin.ext (by
    match a with
    | ⟨0, _⟩ => exact (rhs_upd_0 _ _).trans hk
    | ⟨1, _⟩ => exact rhs_upd_1 _ _)
  rw [el, er]

/-- The body's arithmetic at entry (p, q) of its result block. -/
theorem pay1_apply (x0 x1 : Vec Ideal S512x1024 .f32) (x2 : Vec Ideal S1024x1024 .f32) (p q : Fin 1024) :
    k1_pay1 (F := Ideal) x0 x1 x2 (ix2 p q)
      = x2 (ix2 p q) - Ideal.ofBits .f32 0x33CCCCCD#32 * ∑ r : Fin 512, x0 (ix2 r p) * x1 (ix2 r q) := by
  unfold k1_pay1
  rw [subf_apply, mulf_apply, broadcast_apply, colDot_apply, shapeCast_self]
  rfl

/-- The same entry when the three blocks are pieces of whole arrays: if the tile entry is the weight at (i, j), column p
    of the first block is column i of the keys and column q of the second is column j of the first stage's result, the
    entry is the second stage at (i, j). -/
theorem pay1_eq_updAt (x0 x1 : Vec Ideal S512x1024 .f32) (x2 : Vec Ideal S1024x1024 .f32)
    (keys diff : SK.Idx → EReal) (W : SW.Idx → EReal) (p q : Fin 1024) (i j : Fin 4096)
    (hW : x2 (ix2 p q) = W (ix2 i j)) (hK : ∀ r : Fin 512, x0 (ix2 r p) = keys (ix2 r i))
    (hD : ∀ r : Fin 512, x1 (ix2 r q) = diff (ix2 r j)) :
    k1_pay1 (F := Ideal) x0 x1 x2 (ix2 p q) = updAt keys diff W i j := by
  rw [pay1_apply, hW]
  unfold updAt
  simp only [hK, hD]

/-! ## The blocks of the three inputs and of the result -/

/-- The four index maps over the sixteen grid points: point t = 4·mi + ni reads column block mi of the keys, column
    block ni of the first stage's result and tile (mi, ni) of the weights, and writes tile (mi, ni). -/
theorem idx_facts1 : ∀ t : Fin cfg1.N,
    win1_0.index t (0 : Fin 2) = 0 ∧ win1_0.index t (1 : Fin 2) = t.val / 4
    ∧ win1_1.index t (0 : Fin 2) = 0 ∧ win1_1.index t (1 : Fin 2) = t.val % 4
    ∧ win1_2.index t (0 : Fin 2) = t.val / 4 ∧ win1_2.index t (1 : Fin 2) = t.val % 4
    ∧ win1_3.index t (0 : Fin 2) = t.val / 4 ∧ win1_3.index t (1 : Fin 2) = t.val % 4 :=
  (by decide +kernel : ∀ t : Fin grid1.N, _)

/-- Entry (r, p) of the keys' block at point t is the keys at (r, 1024·(t / 4) + p). -/
theorem keys_blk (c : Dev nD) (t : Fin cfg1.N) (y : S512x1024.Idx) (k : SK.Idx)
    (hk0 : (k 0).val = (y 0).val) (hk1 : (k 1).val = 1024 * (t.val / 4) + (y 1).val) :
    (iblk1 V c 0 t : Vec Ideal S512x1024 .f32) y = (V c main_arg1 : SK.Idx → EReal) k := by
  obtain ⟨e00, e01, -⟩ := idx_facts1 t
  unfold iblk1
  rw [View.read_apply]
  show V c main_arg1 (((cfg1.win 0).blk t).view.emb y) = V c main_arg1 k
  congr 1
  funext a
  apply Fin.ext
  match a with
  | ⟨0, _⟩ => show win1_0.index t (0 : Fin 2) * 512 + 1 * (y 0).val = (k 0).val; rw [e00, hk0]; omega
  | ⟨1, _⟩ => show win1_0.index t (1 : Fin 2) * 1024 + 1 * (y 1).val = (k 1).val; rw [e01, hk1]; omega

/-- Entry (r, q) of the first stage's block at point t is that array at (r, 1024·(t % 4) + q). -/
theorem diff_blk (c : Dev nD) (t : Fin cfg1.N) (y : S512x1024.Idx) (k : SK.Idx)
    (hk0 : (k 0).val = (y 0).val) (hk1 : (k 1).val = 1024 * (t.val % 4) + (y 1).val) :
    (iblk1 V c 1 t : Vec Ideal S512x1024 .f32) y = (V c main_v0 : SK.Idx → EReal) k := by
  obtain ⟨-, -, e10, e11, -⟩ := idx_facts1 t
  unfold iblk1
  rw [View.read_apply]
  show V c main_v0 (((cfg1.win 1).blk t).view.emb y) = V c main_v0 k
  congr 1
  funext a
  apply Fin.ext
  match a with
  | ⟨0, _⟩ => show win1_1.index t (0 : Fin 2) * 512 + 1 * (y 0).val = (k 0).val; rw [e10, hk0]; omega
  | ⟨1, _⟩ => show win1_1.index t (1 : Fin 2) * 1024 + 1 * (y 1).val = (k 1).val; rw [e11, hk1]; omega

/-- Entry (p, q) of the weights' tile at point t is the weights at (1024·(t / 4) + p, 1024·(t % 4) + q). -/
theorem w_blk (c : Dev nD) (t : Fin cfg1.N) (y : S1024x1024.Idx) (k : SW.Idx)
    (hk0 : (k 0).val = 1024 * (t.val / 4) + (y 0).val) (hk1 : (k 1).val = 1024 * (t.val % 4) + (y 1).val) :
    (iblk1 V c 2 t : Vec Ideal S1024x1024 .f32) y = (V c main_arg0 : SW.Idx → EReal) k := by
  obtain ⟨-, -, -, -, e20, e21, -⟩ := idx_facts1 t
  unfold iblk1
  rw [View.read_apply]
  show V c main_arg0 (((cfg1.win 2).blk t).view.emb y) = V c main_arg0 k
  congr 1
  funext a
  apply Fin.ext
  match a with
  | ⟨0, _⟩ => show win1_2.index t (0 : Fin 2) * 1024 + 1 * (y 0).val = (k 0).val; rw [e20, hk0]; omega
  | ⟨1, _⟩ => show win1_2.index t (1 : Fin 2) * 1024 + 1 * (y 1).val = (k 1).val; rw [e21, hk1]; omega

/-- Where entry (p, q) of the result's tile at point t sits in the result array. -/
theorem out_emb (t : Fin cfg1.N) (y : S1024x1024.Idx) :
    ((((cfg1.win 3).blk t).view.emb y) 0).val = 1024 * (t.val / 4) + (y 0).val
    ∧ ((((cfg1.win 3).blk t).view.emb y) 1).val = 1024 * (t.val % 4) + (y 1).val := by
  obtain ⟨-, -, -, -, -, -, e30, e31⟩ := idx_facts1 t
  constructor
  · show win1_3.index t (0 : Fin 2) * 1024 + 1 * (y 0).val = _; rw [e30]; omega
  · show win1_3.index t (1 : Fin 2) * 1024 + 1 * (y 1).val = _; rw [e31]; omega

/-! ## What a point writes back, and the whole array -/

/-- What point t writes back is tile t of the second stage of the three arrays as the call found them: entry by entry
    the body's arithmetic, each block entry read where it sits in its array. -/
theorem flushed1_eq (c : Dev nD) (t : Fin cfg1.N) :
    (dat1 (F := Ideal) V c).flushed 3 t
      = ((cfg1.win 3).blk t).view.read (Elt Ideal) (updG (V c main_arg1) (V c main_v0) (V c main_arg0)) := by
  show (cfg1.win 3).cut (grid1.coords t) ((dat1 V c).after 3 t) = _
  rw [after1_3]
  refine funext fun (j : S1024x1024.Idx) => ?_
  obtain ⟨p, q, rfl⟩ : ∃ (p q : Fin 1024), j = ix2 p q := ⟨j 0, j 1, eq_ix2 j⟩
  rw [View.read_apply]
  obtain ⟨o0, o1⟩ := out_emb t (ix2 p q)
  obtain ⟨i0, i1, hi⟩ : ∃ (i0 i1 : Fin 4096), ((cfg1.win 3).blk t).view.emb (ix2 p q) = ix2 i0 i1 := ⟨_, _, eq_ix2 _⟩
  rw [hi] at o0 o1 ⊢
  show k1_pay1 (F := Ideal) (iblk1 V c 0 t) (iblk1 V c 1 t) (iblk1 V c 2 t) (ix2 p q)
    = updAt (V c main_arg1) (V c main_v0) (V c main_arg0) i0 i1
  exact pay1_eq_updAt (iblk1 V c 0 t) (iblk1 V c 1 t) (iblk1 V c 2 t) (V c main_arg1) (V c main_v0) (V c main_arg0) p q i0 i1
    (w_blk V c t (ix2 p q) (ix2 i0 i1) o0 o1)
    (fun r => keys_blk V c t (ix2 r p) (ix2 r i0) rfl o0)
    (fun r => diff_blk V c t (ix2 r q) (ix2 r i1) rfl o1)

/-- An index of the result array lies in point t's tile exactly when each coordinate lies in the tile's range on its axis. -/
theorem mem_blk1 (t : Fin cfg1.N) (i : SW.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v1).slice (win1_3.rect t)).set ↔ _
  rw [View.set_slice_whole, Rect.mem_set_unit]
  exact Iff.rfl

/-- The sixteen tiles fill the result array: index (i, j) lies in the tile of point 4·(i / 1024) + j / 1024. -/
theorem cover1 (i : SW.Idx) : ∃ t : Fin cfg1.N, (cfg1.win 3).flush t = true ∧ i ∈ ((cfg1.win 3).blk t).view.set := by
  have h0 : (i 0).val < 4096 := idx2_lt0 i
  have h1 : (i 1).val < 4096 := idx2_lt1 i
  have hN : grid1.N = 16 := N_1
  obtain ⟨t, ht⟩ : ∃ t : Fin cfg1.N, t.val = 4 * ((i 0).val / 1024) + (i 1).val / 1024 :=
    ⟨⟨4 * ((i 0).val / 1024) + (i 1).val / 1024, by show _ < grid1.N; omega⟩, rfl⟩
  obtain ⟨-, -, -, -, -, -, e30, e31⟩ := idx_facts1 t
  refine ⟨t, flush1_3 t, ?_⟩
  rw [mem_blk1]
  intro a
  match a with
  | ⟨0, _⟩ =>
    show win1_3.index t (0 : Fin 2) * 1024 ≤ (i 0).val ∧ (i 0).val < win1_3.index t (0 : Fin 2) * 1024 + 1024
    rw [e30]; omega
  | ⟨1, _⟩ =>
    show win1_3.index t (1 : Fin 2) * 1024 ≤ (i 1).val ∧ (i 1).val < win1_3.index t (1 : Fin 2) * 1024 + 1024
    rw [e31]; omega

end Update

/-- After the second call's sixteen points its result array holds the second stage of (keys, diff, W) as it found them. -/
theorem arr1_eq (c : Dev nD) :
    (dat1 (F := Ideal) V c).arrAt 3 cfg1.N = updG (V c main_arg1) (V c main_v0) (V c main_arg0) :=
  (dat1 (F := Ideal) V c).arrAt_eq_of_cover 3 (updG (V c main_arg1) (V c main_v0) (V c main_arg0))
    (fun t _ => Update.flushed1_eq V c t) Update.cover1

end Cert.KernelIdeal.Hand

end
-- ==== Proof.Ideal.Consts.lean ====
/-
  The float words the two programs spell, as the extended reals they denote at the ideal instance, and the coercion of
  a finite real sum. Stated once here so that every module that needs a word's value reads it from one place.

    0x3F800000 = 1      0x40000000 = 2      0x4A000000 = 2²¹ = 2097152
    0x3DCCCCCD = 13421773 · 2⁻²⁷  (the float nearest 0.1)
    0x33CCCCCD = 13421773 · 2⁻⁴⁷  (the same mantissa, twenty binades lower)
    0x7F800000 = +∞
-/
import Idealize.ShloMosaic.PureOps.Ideal

noncomputable section

open scoped BigOperators

namespace Cert.Consts

open Idealize.ShloMosaic

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_2097152 : Ideal.ofBits .f32 0x4A000000#32 = ((2097152 : ℝ) : EReal) := by
  simp [Ideal.ofBits, Ideal.ieee, -EReal.coe_mul]; norm_num

theorem ofBits_lr : Ideal.ofBits .f32 0x3DCCCCCD#32 = ((13421773 / 2 ^ 27 : ℝ) : EReal) := by
  simp [Ideal.ofBits, Ideal.ieee, -EReal.coe_mul]; norm_num

theorem ofBits_step : Ideal.ofBits .f32 0x33CCCCCD#32 = ((13421773 / 2 ^ 47 : ℝ) : EReal) := by
  simp [Ideal.ofBits, Ideal.ieee, -EReal.coe_mul]; norm_num

/-- The word 0x7F800000 is +∞. -/
theorem ofBits_inf : Ideal.ofBits .f32 0x7F800000#32 = (⊤ : EReal) := by
  simp [Ideal.ofBits, Ideal.ieee]

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Consts

end
-- ==== Proof.Ideal.KernelAlgebra.lean ====
/-
  The kernel's two stages composed, on real inputs, are the real closed form.

  Three facts carry it. A sum over 4096 indices is the sum, over four consecutive blocks of 1024, of the block sums.
  On real data every product, sum and difference the two stages form is again (the image of) a real number, so each
  stage is the image of one real expression. And the zero the first stage starts from adds nothing, so its four
  partial sums added in order are the one contraction over all 4096 indices.
-/
import Mathlib.Data.Fintype.BigOperators
import Mathlib.Algebra.BigOperators.Fin
import Mathlib.Logic.Equiv.Fin.Basic
import Idealize.ShloMosaic.PureOps.Ideal.Laws
import proofs.«158181_j27822798143729_1_alg».proof.Proof.Ideal.Spec
import proofs.«158181_j27822798143729_1_alg».proof.Proof.Ideal.Consts

set_option maxRecDepth 16384

noncomputable section

open scoped BigOperators

namespace Cert.Spec

open Idealize.ShloMosaic Idealize.ShloMosaic.ValueIdx

/-! ## Splitting a sum of 4096 terms into four blocks of 1024 -/

/-- Every index below 4096 is uniquely 1024·b + q with b < 4 and q < 1024, so the sum over all indices is the sum
over b of the sums over q. -/
theorem sum_blocks (f : Fin 4096 → ℝ) :
    ∑ p : Fin 4096, f p = ∑ b : Fin 4, ∑ q : Fin 1024, f ⟨1024 * b.val + q.val, by omega⟩ := by
  rw [← Fintype.sum_prod_type (f := fun x : Fin 4 × Fin 1024 => f ⟨1024 * x.1.val + x.2.val, by omega⟩)]
  symm
  refine Fintype.sum_equiv (finProdFinEquiv : Fin 4 × Fin 1024 ≃ Fin (4 * 1024)) _ _ ?_
  rintro ⟨b, q⟩
  congr 1
  apply Fin.ext
  show 1024 * b.val + q.val = q.val + 1024 * b.val
  omega

/-- The same with the four blocks written out and added, in order, to a zero. -/
theorem sum_blocks_ordered (f : Fin 4096 → ℝ) (g : Fin 4 → ℝ)
    (hg : ∀ b : Fin 4, g b = ∑ q : Fin 1024, f ⟨1024 * b.val + q.val, by omega⟩) :
    (((0 + g 0) + g 1) + g 2) + g 3 = ∑ p : Fin 4096, f p := by
  rw [sum_blocks f, Fin.sum_univ_four, zero_add, ← hg 0, ← hg 1, ← hg 2, ← hg 3]

/-! ## The first stage on real data -/

/-- One block's partial contraction, on real data. -/
def realPartial (k : Fin 512 → Fin 4096 → ℝ) (w : Fin 4096 → Fin 4096 → ℝ) (r : Fin 512) (j : Fin 4096)
    (b : Fin 4) : ℝ :=
  ∑ q : Fin 1024, k r ⟨1024 * b.val + q.val, by omega⟩ * w ⟨1024 * b.val + q.val, by omega⟩ j

/-- A partial contraction of real data is the image of the real partial contraction: the image of a product is the
product of the images and the image of a finite sum is the sum of the images. -/
theorem partialDot_real (k : Fin 512 → Fin 4096 → ℝ) (w : Fin 4096 → Fin 4096 → ℝ) (r : Fin 512) (j : Fin 4096)
    (b : Fin 4) : partialDot (liftK k) (liftW w) r j b = ((realPartial k w r j b : ℝ) : EReal) := by
  unfold partialDot realPartial
  rw [Cert.Consts.coe_sum]
  refine Finset.sum_congr rfl fun q _ => ?_
  rw [liftK_ix2, liftW_ix2, EReal.coe_mul]

/-- The first stage at (r, j) on real data is the image of the full contraction less the value. The starting word
is zero; sums and the difference of images are images; and the four block sums make up the whole sum. -/
theorem diffAt_real (k : Fin 512 → Fin 4096 → ℝ) (w : Fin 4096 → Fin 4096 → ℝ) (v : Fin 512 → Fin 4096 → ℝ)
    (r : Fin 512) (j : Fin 4096) :
    diffAt (liftK k) (liftW w) (liftK v) r j = (((∑ q : Fin 4096, k r q * w q j) - v r j : ℝ) : EReal) := by
  unfold diffAt
  rw [partialDot_real, partialDot_real, partialDot_real, partialDot_real, Ideal.ofBits_zero_f32, liftK_ix2,
    ← EReal.coe_zero, ← EReal.coe_add, ← EReal.coe_add, ← EReal.coe_add, ← EReal.coe_add, ← EReal.coe_sub,
    sum_blocks_ordered (fun q => k r q * w q j) (realPartial k w r j) (fun b => rfl)]

/-! ## The second stage on the first stage's result -/

/-- The first stage's array at the index with coordinates (r, j) is its value at (r, j). -/
theorem diffG_ix2 (keys : SK.Idx → EReal) (W : SW.Idx → EReal) (vals : SK.Idx → EReal) (r : Fin 512) (j : Fin 4096) :
    diffG keys W vals (ix2 r j) = diffAt keys W vals r j := rfl

/-- The second stage at (i, j), fed the first stage's result on real data, is the image of the closed form: the
step word is the rational 13421773 / 2⁴⁷, and products, the sum over rows and the difference stay real. -/
theorem updAt_real (k : Fin 512 → Fin 4096 → ℝ) (w : Fin 4096 → Fin 4096 → ℝ) (v : Fin 512 → Fin 4096 → ℝ)
    (i j : Fin 4096) :
    updAt (liftK k) (diffG (liftK k) (liftW w) (liftK v)) (liftW w) i j = ((realOut k w v i j : ℝ) : EReal) := by
  have hsum : ∑ r : Fin 512, liftK k (ix2 r i) * diffG (liftK k) (liftW w) (liftK v) (ix2 r j)
      = ((∑ r : Fin 512, k r i * ((∑ q : Fin 4096, k r q * w q j) - v r j) : ℝ) : EReal) := by
    rw [Cert.Consts.coe_sum]
    refine Finset.sum_congr rfl fun r _ => ?_
    rw [liftK_ix2, diffG_ix2, diffAt_real, EReal.coe_mul]
  unfold updAt realOut
  rw [hsum, Cert.Consts.ofBits_step, liftW_ix2, ← EReal.coe_mul, ← EReal.coe_sub]

/-- On real inputs the second stage applied to the first stage's result is the real closed form. -/
theorem kernel_real (k : Fin 512 → Fin 4096 → ℝ) (w : Fin 4096 → Fin 4096 → ℝ) (v : Fin 512 → Fin 4096 → ℝ) :
    updG (liftK k) (diffG (liftK k) (liftW w) (liftK v)) (liftW w) = liftW (realOut k w v) := by
  funext y
  obtain ⟨i, j, rfl⟩ : ∃ (i j : Fin 4096), y = ix2 i j := ⟨y 0, y 1, eq_ix2 y⟩
  exact updAt_real k w v i j

end Cert.Spec

end
-- ==== Proof.Ideal.RefValue.lean ====
/-
  The reference's result, read index by index at the ideal instance, is the real closed form on real inputs.

  Entry (i, j) of the reference's result is  W(i, j) − λ · T(i, j),  where T is the transpose of the second contraction,
  T(i, j) = Σ_{r < 512} g(r, j) · keys(r, i),  and  g(r, j) = (1 / 2097152) · (2 · (Σ_{q < 4096} keys(r, q) · W(q, j) − vals(r, j)))
  is the scaled residual. The learning rate λ is the float word for 0.1, which denotes 13421773 / 2²⁷; the words for
  1, 2 and 2097152 = 2²¹ denote those reals. On real inputs every factor is a real number, so the whole entry is the
  coercion of one real expression, and  λ · (1 / 2²¹) · 2 = 13421773 / 2⁴⁷  turns it into the closed form.
-/
import proofs.«158181_j27822798143729_1_alg».proof.Proof.Gen.ReferenceIdeal.Read
import proofs.«158181_j27822798143729_1_alg».proof.Proof.Ideal.Spec
import proofs.«158181_j27822798143729_1_alg».proof.Proof.Ideal.Consts
import Idealize.ShloMosaic.PureOps.Ideal.Laws

set_option maxRecDepth 16384

noncomputable section

open scoped BigOperators

namespace Cert.ReferenceIdeal.RefValue

open Idealize.ShloMosaic Idealize.ShloMosaic.ValueIdx Cert.Spec Cert.ReferenceIdeal Cert.ReferenceIdeal.Read

/-! ## Where each operation reads its operands -/

/-- The transpose reads entry (i, j) of its result at (j, i) of its operand. -/
theorem transpose_at (i j : Fin 4096) : idx_main_v11 (ix2 i j) = ix2 j i :=
  funext fun a => Fin.ext (by match a with | ⟨0, _⟩ => rfl | ⟨1, _⟩ => rfl)

/-- The second contraction runs over the rows: at (a, b) its left factor is read at (r, a) … -/
theorem outer_left_at (a b : Fin 4096) (r : Fin 512) : lidx_main_v10 (ix2 a b) r = ix2 r a :=
  funext fun c => Fin.ext (by match c with | ⟨0, _⟩ => rfl | ⟨1, _⟩ => rfl)

/-- … and its right factor at (r, b). -/
theorem outer_right_at (a b : Fin 4096) (r : Fin 512) : ridx_main_v10 (ix2 a b) r = ix2 r b :=
  funext fun c => Fin.ext (by match c with | ⟨0, _⟩ => rfl | ⟨1, _⟩ => rfl)

/-- The first contraction is the matrix product keys · W: at (r, j) its left factor is read at (r, q) … -/
theorem inner_left_at (r : Fin 512) (j q : Fin 4096) : lidx_main_v0 (ix2 r j) q = ix2 r q :=
  funext fun c => Fin.ext (by match c with | ⟨0, _⟩ => rfl | ⟨1, _⟩ => rfl)

/-- … and its right factor at (q, j). -/
theorem inner_right_at (r : Fin 512) (j q : Fin 4096) : ridx_main_v0 (ix2 r j) q = ix2 q j :=
  funext fun c => Fin.ext (by match c with | ⟨0, _⟩ => rfl | ⟨1, _⟩ => rfl)

/-! ## One entry of the result, operation by operation -/

/-- Entry (i, j) on arbitrary extended-real inputs: the weight less the learning-rate word times the sum over the rows
    of the scaled residual at (r, j) against keys at (r, i). The transpose swaps the coordinates, which is why column
    j of the residual meets column i of keys. -/
theorem entry_at (W : SW.Idx → EReal) (keys vals : SK.Idx → EReal) (i j : Fin 4096) :
    val_main_v14 (F := Ideal) W keys vals (ix2 i j)
      = W (ix2 i j) - Ideal.ofBits .f32 0x3DCCCCCD#32 *
          ∑ r : Fin 512,
            (Ideal.div (Ideal.ofBits .f32 0x3F800000#32) (Ideal.ofBits .f32 0x4A000000#32) *
              (Ideal.ofBits .f32 0x40000000#32 *
                ((∑ q : Fin 4096, keys (ix2 r q) * W (ix2 q j)) - vals (ix2 r j)))) * keys (ix2 r i) := by
  rw [val_main_v14_apply, val_main_v13_apply, val_main_v12_apply, val_main_cst_4_apply, val_main_v11_apply, transpose_at,
    val_main_v10_apply]
  simp only [outer_left_at, outer_right_at, val_main_v9_apply, val_main_v8_apply, val_main_v7_apply, val_main_cst_2_apply,
    val_main_cst_3_apply, val_main_v4_apply, val_main_v3_apply, val_main_cst_apply, val_main_v1_apply, val_main_v0_apply,
    inner_left_at, inner_right_at, Ideal.subf_def, Ideal.mulf_def, Ideal.hostDivf_def, Ideal.ofBits_def]

/-! ## The scalars and the real identity -/

/-- The mean's factor: the quotient of the words for 1 and 2²¹ is the real 1 · (1 / 2097152) (the divisor is a nonzero
    real, so the extended quotient is the product with its reciprocal). -/
theorem mean_factor :
    Ideal.div (Ideal.ofBits .f32 0x3F800000#32) (Ideal.ofBits .f32 0x4A000000#32) = (((1 : ℝ) * (1 / 2097152 : ℝ) : ℝ) : EReal) := by
  rw [Cert.Consts.ofBits_one, Cert.Consts.ofBits_2097152, Ideal.div_coe (by norm_num : (2097152 : ℝ) ≠ 0), ← EReal.coe_mul]

/-- In the reals the three scalars collapse: (13421773 / 2²⁷) · (1 / 2²¹) · 2 = 13421773 / 2⁴⁷, applied term by term
    under the sum over the rows (the constant goes inside the sum on both sides, and each term is a ring identity). -/
theorem real_step (k : Fin 512 → Fin 4096 → ℝ) (w : Fin 4096 → Fin 4096 → ℝ) (v : Fin 512 → Fin 4096 → ℝ) (i j : Fin 4096) :
    w i j - (13421773 / 2 ^ 27 : ℝ) *
        ∑ r : Fin 512, ((1 : ℝ) * (1 / 2097152 : ℝ)) * (2 * ((∑ q : Fin 4096, k r q * w q j) - v r j)) * k r i
      = realOut k w v i j := by
  unfold realOut
  rw [Finset.mul_sum, Finset.mul_sum]
  refine congrArg (fun t : ℝ => w i j - t) (Finset.sum_congr rfl fun r _ => ?_)
  ring

/-! ## The result array -/

/-- On real inputs the reference's result array is the real closed form. -/
theorem ref_real (k : Fin 512 → Fin 4096 → ℝ) (w : Fin 4096 → Fin 4096 → ℝ) (v : Fin 512 → Fin 4096 → ℝ) :
    val_main_v14 (F := Ideal) (liftW w) (liftK k) (liftK v) = liftW (realOut k w v) := by
  funext y
  obtain ⟨i, j, rfl⟩ : ∃ (i j : Fin 4096), y = ix2 i j := ⟨y 0, y 1, eq_ix2 y⟩
  rw [entry_at, mean_factor, Cert.Consts.ofBits_lr, Cert.Consts.ofBits_two]
  -- every factor is now the coercion of a real: gather products, sums and differences under one coercion
  simp only [liftK_ix2, liftW_ix2, ← EReal.coe_mul, ← Cert.Consts.coe_sum, ← EReal.coe_sub]
  exact congrArg (fun t : ℝ => (t : EReal)) (real_step k w v i j)

end Cert.ReferenceIdeal.RefValue

end
-- ==== Proof.Ideal.Finite.lean ====
/-
  What the precondition says: each of the three inputs passes `all (|x| < +∞)`, so every entry of every input is a
  real number, and each input array is the coercion of a real array.
-/
import proofs.«158181_j27822798143729_1_alg».proof.Pre_finite_inputs
import proofs.«158181_j27822798143729_1_alg».proof.Proof.Ideal.Spec
import proofs.«158181_j27822798143729_1_alg».proof.Proof.Ideal.Consts
import Idealize.ShloMosaic.Lib.ReduceAll
import Idealize.ShloMosaic.Lib.Pipeline.Value
import Idealize.ShloMosaic.Lib.ValueIdx

noncomputable section

namespace Cert.Pre_finite_inputs.Finite

open Idealize.ShloMosaic Idealize.ShloMosaic.ValueIdx Cert.Pre_finite_inputs Cert.Spec

variable [Facts]
open Facts

instance : Subsingleton S_.Idx := ⟨fun a b => funext fun d => d.elim0⟩

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  rw [Cert.Consts.ofBits_inf] at h
  have hlt : max x (-x) < ⊤ := by
    by_contra hn
    simp only [Ideal.cmp, hn, decide_false, BitVec.ofBool_false] at h
    exact absurd h (by decide)
  induction x using EReal.rec with
  | bot => simp at hlt
  | coe r => exact ⟨r, rfl⟩
  | top => simp at hlt

/-- One `all (|x| < +∞)` read back at an entry. -/
theorem entry_real {n0 n1 : Nat} (x : FVec Ideal (⟨2, ![n0, n1]⟩ : Shape) .f32)
    (hb : S_.BroadcastsInDim (⟨2, ![n0, n1]⟩ : Shape) (![] : Fin 0 → Fin 2))
    (hr : (⟨2, ![n0, n1]⟩ : Shape).ReducesTo [0, 1] S_)
    (e : Host.reduce IntOp.andi (cmpf .olt (Host.absf x) (broadcastInDim (⟨2, ![n0, n1]⟩ : Shape) ![] hb (constant (F := Ideal) S_ .f32 0x7F800000#32)))
      (constantI S_ 1 1#1) hr h_S_ ix0 = 1#1) (i : (⟨2, ![n0, n1]⟩ : Shape).Idx) : ∃ r : ℝ, x i = (r : EReal) := by
  have hi := Host.reduce_andi_all _ _ hr h_S_ ix0 e i
  refine real_of_abs_lt_top (x i) ?_
  rw [← hi]
  show _ = Ideal.cmp .olt (max (x i) (-(x i))) (broadcastInDim (⟨2, ![n0, n1]⟩ : Shape) ![] hb (constant (F := Ideal) S_ .f32 0x7F800000#32) i)
  rw [broadcastInDim_apply _ hb _ i ix0 (fun a => a.elim0)]
  rfl

/-- Under the precondition the three inputs are coercions of real arrays. -/
theorem exists_real (w0 : FVec Ideal S4096x4096 .f32) (k0 v0 : FVec Ideal S512x4096 .f32)
    (h : fn (F := Ideal) w0 k0 v0 = fun _ => 1#1) :
    ∃ (w : Fin 4096 → Fin 4096 → ℝ) (k v : Fin 512 → Fin 4096 → ℝ), w0 = liftW w ∧ k0 = liftK k ∧ v0 = liftK v := by
  have h0 := congrFun h ix0
  dsimp only [fn] at h0
  obtain ⟨h8, h12⟩ := IntOp.andi_eq_one.1 h0
  obtain ⟨h3, h7⟩ := IntOp.andi_eq_one.1 h8
  have hw := entry_real w0 bcast_S_S4096x4096 reducesTo_S4096x4096_S_d0_1 h3
  have hk := entry_real k0 bcast_S_S512x4096 reducesTo_S512x4096_S_d0_1 h7
  have hv := entry_real v0 bcast_S_S512x4096 reducesTo_S512x4096_S_d0_1 h12
  choose w hw using hw
  choose k hk using hk
  choose v hv using hv
  refine ⟨fun i j => w (ix2 i j), fun r j => k (ix2 r j), fun r j => v (ix2 r j), ?_, ?_, ?_⟩
  · funext y; rw [hw y]; exact congrArg (fun z => ((w z : ℝ) : EReal)) (eq_ix2 y)
  · funext y; rw [hk y]; exact congrArg (fun z => ((k z : ℝ) : EReal)) (eq_ix2 y)
  · funext y; rw [hv y]; exact congrArg (fun z => ((v z : ℝ) : EReal)) (eq_ix2 y)

end Cert.Pre_finite_inputs.Finite

end
-- ==== Proof.Ideal.Assemble.lean ====
/-
  The value claim assembled from its four parts. Given
    • what each of the two pallas_calls leaves in its result array as a function of the arrays it was entered with
      (the two stages `diffG`, `updG`),
    • that the two stages composed are the real closed form on real inputs, and
    • that the reference's result is the same closed form on real inputs,
  the idealized kernel and the reference, run from memories that agree on the three finite inputs, end with equal
  results: the inputs are coercions of real arrays (the precondition), the kernel's run ends with its result array at
  the second stage of (keys, first stage, W), the reference's at its own term, and both are the closed form.
-/
import proofs.«158181_j27822798143729_1_alg».proof.Defs
import proofs.«158181_j27822798143729_1_alg».proof.Proof.Gen.Pre_finite_inputs
import proofs.«158181_j27822798143729_1_alg».proof.Proof.Gen.ReferenceIdeal.Read
import proofs.«158181_j27822798143729_1_alg».proof.Proof.Ideal.Run
import proofs.«158181_j27822798143729_1_alg».proof.Proof.Ideal.Spec
import proofs.«158181_j27822798143729_1_alg».proof.Proof.Ideal.Finite

set_option maxRecDepth 16384

noncomputable section

namespace Cert.Proof

open Idealize.ShloMosaic Idealize.ShloMosaic.TcCoe Idealize.SL.Sem Cert.Spec

/-- The reference's frame: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The value claim from its four parts. -/
theorem algebraic_of
    (h0 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Hand.dat0 (F := Ideal) V c).arrAt 3 Cert.KernelIdeal.cfg0.N
        = diffG (V c Cert.KernelIdeal.main_arg1) (V c Cert.KernelIdeal.main_arg0) (V c Cert.KernelIdeal.main_arg2))
    (h1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
      (Cert.KernelIdeal.Hand.dat1 (F := Ideal) V c).arrAt 3 Cert.KernelIdeal.cfg1.N
        = updG (V c Cert.KernelIdeal.main_arg1) (V c Cert.KernelIdeal.main_v0) (V c Cert.KernelIdeal.main_arg0))
    (hK : ∀ (k : Fin 512 → Fin 4096 → ℝ) (w : Fin 4096 → Fin 4096 → ℝ) (v : Fin 512 → Fin 4096 → ℝ),
      updG (liftK k) (diffG (liftK k) (liftW w) (liftK v)) (liftW w) = liftW (realOut k w v))
    (hR : ∀ (k : Fin 512 → Fin 4096 → ℝ) (w : Fin 4096 → Fin 4096 → ℝ) (v : Fin 512 → Fin 4096 → ℝ),
      Cert.ReferenceIdeal.Read.val_main_v14 (F := Ideal) (liftW w) (liftK k) (liftK v) = liftW (realOut k w v)) :
    Cert.algebraic_KernelIdeal_ReferenceIdeal := by
  intro m ρ m' ρ' hpre hagree
  have hreal := fun c => Cert.Pre_finite_inputs.Finite.exists_real _ _ _ (hpre c)
  choose w k v hw hk hv using hreal
  refine ⟨fun c => liftW (realOut (k c) (w c) (v c)), ?_, ?_⟩
  · refine (θ_run Cert.KernelIdeal.defs _ _).mono (fun r h c => ⟨(h c).1.trans ?_, (h c).2⟩)
      (Cert.KernelIdeal.Hand.run_value (F := Ideal) m ρ)
    rw [h1 (Cert.KernelIdeal.Hand.V1 m) c, Cert.KernelIdeal.Hand.V1_main_v0 m c, h0 (Cert.KernelIdeal.Hand.V0 m) c,
      Cert.KernelIdeal.Hand.V1_main_arg1 m c, Cert.KernelIdeal.Hand.V1_main_arg0 m c]
    have e : ∀ b : Ref Cert.KernelIdeal.sig .tc,
        Cert.KernelIdeal.Hand.V0 m c b = m ((c.tc : Thread Cert.KernelIdeal.nD Cert.KernelIdeal.τ).loc b) := fun _ => rfl
    rw [e Cert.KernelIdeal.main_arg1, e Cert.KernelIdeal.main_arg0, e Cert.KernelIdeal.main_arg2, hw c, hk c, hv c]
    exact hK (k c) (w c) (v c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, (hagree c).1, (hagree c).2.1, (hagree c).2.2, hw c, hk c, hv c]
    exact hR (k c) (w c) (v c)

end Cert.Proof

end
-- ==== Proof.lean ====
/-
  One step of gradient descent on a linear memory: new_W = W − 0.1 · ∂/∂W mean((keys · W − vals)²), with W of shape
  4096 × 4096 and keys, vals of shape 512 × 4096. The kernel does it in two pallas_calls — diff = keys · W − vals, the
  contraction accumulated over four blocks in a scratch buffer, then new_W = W − κ · keysᵀ · diff tile by tile — where κ is
  the float product of 0.1 and 2 / (512 · 4096) = 2⁻²⁰; the reference differentiates the mean-square error, which gives
  0.1 · keysᵀ · ((1 / 2²¹) · (2 · diff)). As floats, κ and 0.1 have the same mantissa twenty binades apart, so on finite
  inputs — where every product and sum is a real number and scalars move across sums — both programs compute
      W(i, j) − (13421773 / 2⁴⁷) · Σ_r keys(r, i) · (Σ_q keys(r, q) · W(q, j) − vals(r, j)).

  The claim's five parts:
  • the word-level kernel and the idealized kernel run to the end, fault nowhere and leave the three inputs unchanged:
    each pallas_call is a pipeline region whose body is run symbolically in its three control cases (first, middle and
    last contraction block), the accumulator's contents carried in the region's invariant; the two regions are chained
    over the contents of the core's buffers at the three boundaries;
  • the reference runs likewise (its host operations read back one by one);
  • the idealized kernel is the kernel's own text read at the ideal instance: no rewrite was applied;
  • the two idealized programs end with equal results: the kernel's result array is the second stage of (keys, first
    stage, W), both sides are the closed form above on real inputs, and the precondition makes the inputs real.
-/
import proofs.«158181_j27822798143729_1_alg».proof.Defs
import proofs.«158181_j27822798143729_1_alg».proof.Proof.Gen.Kernel
import proofs.«158181_j27822798143729_1_alg».proof.Proof.Gen.KernelIdeal
import proofs.«158181_j27822798143729_1_alg».proof.Proof.Gen.ReferenceIdeal
import proofs.«158181_j27822798143729_1_alg».proof.Proof.Gen.Pre_finite_inputs
import proofs.«158181_j27822798143729_1_alg».proof.Proof.Bits.Run
import proofs.«158181_j27822798143729_1_alg».proof.Proof.Ideal.Run
import proofs.«158181_j27822798143729_1_alg».proof.Proof.Ideal.Value0
import proofs.«158181_j27822798143729_1_alg».proof.Proof.Ideal.Value1
import proofs.«158181_j27822798143729_1_alg».proof.Proof.Ideal.KernelAlgebra
import proofs.«158181_j27822798143729_1_alg».proof.Proof.Ideal.RefValue
import proofs.«158181_j27822798143729_1_alg».proof.Proof.Ideal.Assemble
import Idealize.ShloMosaic.Adequacy
import Idealize.ShloMosaic.Init

noncomputable section

namespace Cert.Proof

open Idealize.ShloMosaic Idealize.SL.Sem

/-- The word-level kernel's frame. -/
theorem frame_kernel : Cert.frame_Kernel := fun m ρ _ => Cert.Kernel.Hand.frame (F := Bits) m ρ

/-- The idealized kernel's frame. -/
theorem frame_kernelIdeal : Cert.frame_KernelIdeal := fun m ρ _ => Cert.KernelIdeal.Hand.frame (F := Ideal) m ρ

/-- No operation of the kernel was rewritten when it was idealized. -/
theorem preserves : Cert.preserves_Kernel_KernelIdeal := trivial

/-- The two idealized programs end with equal results. -/
theorem algebraic : Cert.algebraic_KernelIdeal_ReferenceIdeal :=
  algebraic_of (fun V c => Cert.KernelIdeal.Hand.arr0_eq V c) (fun V c => Cert.KernelIdeal.Hand.arr1_eq V c)
    Cert.Spec.kernel_real Cert.ReferenceIdeal.RefValue.ref_real

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
